-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x1600000 : Shape := ⟨2, ![2, 1600000]⟩
abbrev S12x128 : Shape := ⟨2, ![12, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x128 : S_.BroadcastsInDim S12x128 (![] : Fin 0 → Fin S12x128.rank)
  reducesTo_S12x128_S_d0_1 : S12x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 1 := constantI S_ 1 1#1
  let main_v26 : IVec S_ 1 := (fun x v => Host.reduce IntOp.andi x v reducesTo_S2x1600000_S_d0_1 h_S_) main_v25 main_c_9
  let main_v27 : IVec S_ 1 := andi main_v23 main_v26
  main_v27

def fn {F : FTy → Type} [FloatOps F] (main_arg0 : FVec F S100000x12 .f32) (main_arg1 : IVec S2x1600000 32) (main_arg2 : FVec F S12x128 .f32) (main_arg3 : FVec F S128 .f32) (main_arg4 : FVec F S128x64 .f32) (main_arg5 : FVec F S64 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x128 .f32 := Host.absf main_arg2
  let main_cst_0 : FVec F S_ .f32 := constant S_ .f32 0x7F800000#32
  let main_v5 : FVec F S12x128 .f32 := broadcastInDim S12x128 ![] bcast_S_S12x128 main_cst_0
  let main_v6 : IVec S12x128 1 := cmpf .olt main_v4 main_v5
  let main_c_1 : IVec S_ 1 := constantI S_ 1 1#1
  let main_v7 : IVec S_ 1 := (fun x v => Host.reduce IntOp.andi x v reducesTo_S12x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x12 : Shape := ⟨2, ![100000, 12]⟩
abbrev S2x1600000 : Shape := ⟨2, ![2, 1600000]⟩
abbrev S12x128 : Shape := ⟨2, ![12, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S100000x128 : Shape := ⟨2, ![100000, 128]⟩
abbrev S4000x12 : Shape := ⟨2, ![4000, 12]⟩
abbrev S4000x1 : Shape := ⟨2, ![4000, 1]⟩
abbrev S4000x128 : Shape := ⟨2, ![4000, 128]⟩
abbrev S1600000x128 : Shape := ⟨2, ![1600000, 128]⟩
abbrev S100000x64 : Shape := ⟨2, ![100000, 64]⟩
abbrev S4000x64 : Shape := ⟨2, ![4000, 64]⟩
abbrev S1600000x64 : Shape := ⟨2, ![1600000, 64]⟩

abbrev nBuf : Space → Nat
  | .hbm => 56
  | .vmem => 30
  | .smem => 0
  | _ => 0

abbrev bufTy : (tb : Table) → Fin (tcTables nBuf tb) → BufTy
  | .hbm, ⟨0, _⟩ => ⟨S100000x12, .f32⟩
  | .hbm, ⟨1, _⟩ => ⟨S2x1600000, .i32⟩
  | .hbm, ⟨2, _⟩ => ⟨S12x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S1x128, .f32⟩
  | .hbm, ⟨22, _⟩ => ⟨S1x64, .f32⟩
  | .hbm, ⟨23, _⟩ => ⟨S100000x128, .f32⟩
  | .hbm, ⟨24, _⟩ => ⟨S100000x128, .bf16⟩
  | .hbm, ⟨25, _⟩ => ⟨S1600000x1, .i32⟩
  | .hbm, ⟨26, _⟩ => ⟨S1600000x128, .bf16⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S100000x128, .f32⟩
  | .hbm, ⟨39, _⟩ => ⟨S100000x64, .f32⟩
  | .hbm, ⟨40, _⟩ => ⟨S100000x64, .bf16⟩
  | .hbm, ⟨41, _⟩ => ⟨S1600000x1, .i32⟩
  | .hbm, ⟨42, _⟩ => ⟨S1600000x64, .bf16⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S100000x64, .f32⟩
  | .hbm, ⟨55, _⟩ => ⟨S100000x64, .f32⟩
  | .local _ .vmem, ⟨0, _⟩ => ⟨S4000x12, .f32⟩
  | .local _ .vmem, ⟨1, _⟩ => ⟨S4000x12, .f32⟩
  | .local _ .vmem, ⟨2, _⟩ => ⟨S12x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .bf16⟩
  | .local _ .vmem, ⟨8, _⟩ => ⟨S4000x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S1x128, .f32⟩
  | .local _ .vmem, ⟨16, _⟩ => ⟨S128x64, .f32⟩
  | .local _ .vmem, ⟨17, _⟩ => ⟨S4000x64, .f32⟩
  | .local _ .vmem, ⟨18, _⟩ => ⟨S4000x64, .f32⟩
  | .local _ .vmem, ⟨19, _⟩ => ⟨S4000x64, .bf16⟩
  | .local _ .vmem, ⟨20, _⟩ => ⟨S4000x64, .bf16⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x1, .f32⟩
  | .local _ .vmem, ⟨26, _⟩ => ⟨S4000x1, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S4000x12_S4000x12_0_0 : ∀ a, (![0, 0] : Fin 2 → Nat) a + S4000x12.size a ≤ S4000x12.size a
  h_S4000x12 : 0 < S4000x12.numel
  bitsLt_bf16_f32 : FTy.bits .bf16 < FTy.bits .f32
  inb_S12x128_S12x128_0_0 : ∀ a, (![0, 0] : Fin 2 → Nat) a + S12x128.size a ≤ S12x128.size a
  h_S12x128 : 0 < S12x128.numel
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  dot_S4000x12_S12x128_S4000x128_1_0_0_1_n_n_wf : DotDims.WF S4000x12 S12x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x12.size a ≤ S100000x12.size a
  hwx0_0 : ∀ i : grid0.Coords, EltTy.bits .f32 = 32 ∨ (Rect.block (s := S100000x12) S4000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x128.size a ≤ S12x128.size a
  hwx0_1 : ∀ i : grid0.Coords, EltTy.bits .f32 = 32 ∨ (Rect.block (s := S12x128) S12x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .bf16 = 32 ∨ (Rect.block (s := S100000x64) S4000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x12_S12x128_S4000x128_1_0_0_1_n_n : DotDims S4000x12 S12x128 S4000x128 where
  lhsContracting := [1]
  rhsContracting := [0]
  lhsNonContracting := [0]
  rhsNonContracting := [1]
  lhsBatch := []
  rhsBatch := []
  wf := dot_S4000x12_S12x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_0) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x12 : Shape := ⟨2, ![100000, 12]⟩
abbrev S2x1600000 : Shape := ⟨2, ![2, 1600000]⟩
abbrev S12x128 : Shape := ⟨2, ![12, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S2x1600000, .i32⟩
  | .hbm, ⟨2, _⟩ => ⟨S12x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x12_S12x128_S100000x128_1_0_0_1_n_n_wf : DotDims.WF S100000x12 S12x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x12_S12x128_S100000x128_1_0_0_1_n_n : DotDims S100000x12 S12x128 S100000x128 where
  lhsContracting := [1]
  rhsContracting := [0]
  lhsNonContracting := [0]
  rhsNonContracting := [1]
  lhsBatch := []
  rhsBatch := []
  wf := dot_S100000x12_S12x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibRealSums.lean ====
/-
  Extended reals that are REAL NUMBERS, and the one law of sums this certificate needs of them.

  On the extended reals a product does not distribute over a sum in general (an infinite factor meets summands of both
  signs). It does when every summand and the factor are real numbers: `(∑ a e) · d = ∑ (a e · d)`. `IsReal x` says `x` is
  the image of a real; it is closed under the field operations met here (sum, product, maximum, finite sums), and the
  reciprocal square root of a positive real is real.
-/
import Idealize.ShloMosaic.PureOps.Ideal
import Mathlib.Algebra.BigOperators.Ring.Finset

noncomputable section

open scoped BigOperators

namespace Idealize.ShloMosaic.RealSums

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type} (S : Finset ι) (f : ι → EReal) (h : ∀ i ∈ S, IsReal (f i)) : IsReal (∑ i ∈ S, f i) := by
  classical
  induction S using Finset.induction_on with
  | empty => rw [Finset.sum_empty]; exact isReal_zero
  | insert a S ha ih =>
    rw [Finset.sum_insert ha]
    exact (h a (Finset.mem_insert_self a S)).add (ih fun i hi => h i (Finset.mem_insert_of_mem hi))

/-- A sum of reals, read in the reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- THE LAW: a real factor distributes over a finite sum of reals. -/
theorem sum_mul_of_isReal {ι : Type} (S : Finset ι) (a : ι → EReal) (ha : ∀ e ∈ S, IsReal (a e)) (d : EReal) (hd : IsReal d) :
    (∑ e ∈ S, a e) * d = ∑ e ∈ S, a e * d := by
  classical
  obtain ⟨r, rfl⟩ := hd
  induction S using Finset.induction_on with
  | empty => simp
  | insert b S hb ih =>
    rw [Finset.sum_insert hb, Finset.sum_insert hb]
    obtain ⟨x, hx⟩ := ha b (Finset.mem_insert_self b S)
    obtain ⟨y, hy⟩ := IsReal.sum S a fun i hi => ha i (Finset.mem_insert_of_mem hi)
    rw [← ih fun i hi => ha i (Finset.mem_insert_of_mem hi), hx, hy, ← EReal.coe_add, ← EReal.coe_mul, ← EReal.coe_mul,
      ← EReal.coe_mul, ← EReal.coe_add, add_mul]

/-- THE AGGREGATION LAW. Over a set `S` of edges that all end at node `i` (`c p = i`), scaling each message by the
    product of the two end nodes' weights and summing is summing the messages scaled by the source's weight and scaling
    the sum by `i`'s weight once: `z + ∑ h(r p)·(w(r p)·w(c p)) = (z + ∑ h(r p)·w(r p))·w(i)` when `z = 0` and all are real. -/
theorem agg_scale {ε ν : Type} (S : Finset ε) (r c : ε → ν) (i : ν) (hc : ∀ p ∈ S, c p = i) (h w : ν → EReal)
    (hh : ∀ k, IsReal (h k)) (hw : ∀ k, IsReal (w k)) (z : EReal) (hz : z = 0) :
    (z + ∑ p ∈ S, h (r p) * w (r p)) * w i = z + ∑ p ∈ S, h (r p) * (w (r p) * w (c p)) := by
  subst hz
  rw [zero_add, zero_add, sum_mul_of_isReal S _ (fun p _ => (hh (r p)).mul (hw (r p))) _ (hw i)]
  refine Finset.sum_congr rfl fun p hp => ?_
  rw [hc p hp, mul_assoc]

/-- The reciprocal square root of a positive real is a real number. -/
theorem isReal_rsqrt_of_pos {r : ℝ} (hr : 0 < r) : IsReal (Ideal.rsqrt (r : EReal)) := by
  rw [Ideal.rsqrt_coe, if_neg (not_lt.mpr hr.le), if_neg hr.ne']
  exact isReal_coe _

end Idealize.ShloMosaic.RealSums

end
-- ==== Proof.PreFacts.lean ====
/-
  What the precondition says of the argument arrays, element by element: every entry of the five float inputs is a real
  number (its absolute value is below +∞), and no entry of the edge list is negative, `0 ≤ edge_index`.
-/
import proofs.«401091_j22041772163615_3_alg».proof.Proof.Gen.Pre_finite_inputs
import proofs.«401091_j22041772163615_3_alg».proof.Proof.LibRealSums
import Idealize.ShloMosaic.Lib.ReduceAll
import Idealize.ShloMosaic.Lib.ValueIdx

noncomputable section

namespace Cert.PreFacts

open Idealize.ShloMosaic Idealize.ShloMosaic.RealSums Cert.Pre_finite_inputs

/-- The pattern 0x7F800000 (sign 0, exponent all ones, fraction 0) denotes +∞. -/
theorem ofBits_inf : Ideal.ofBits .f32 0x7F800000#32 = (⊤ : EReal) := by simp [Ideal.ofBits, Ideal.ieee]

/-- An extended real whose absolute value `max x (-x)` is strictly below +∞ is a real number: of the two infinities
    the absolute value is +∞ itself. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change Ideal.cmp .olt (max x (-x)) (Ideal.ofBits .f32 0x7F800000#32) = 1#1 at h
  rw [ofBits_inf] at h
  induction x using EReal.rec with
  | bot => simp [Ideal.cmp] at h
  | top => simp [Ideal.cmp] at h
  | coe r => exact ⟨r, rfl⟩

/-- The result of a reduction over all axes has one index. -/
instance : Subsingleton S_.Idx := ⟨fun _ _ => funext fun d => d.elim0⟩

/-- `all (|x| < +∞)` over an array of any shape: every entry of `x` is a real number. -/
theorem isReal_of_all {t : Shape} {axes : List (Fin t.rank)} (hb : S_.BroadcastsInDim t (![] : Fin 0 → Fin t.rank))
    (hr : t.ReducesTo axes S_) (hu : 0 < S_.numel) (x : FVec Ideal t .f32) (init : IVec S_ 1) (j : S_.Idx)
    (e : Host.reduce IntOp.andi (cmpf .olt (Host.absf x) (broadcastInDim t ![] hb (constant S_ .f32 0x7F800000#32)))
      init hr hu j = 1#1) (i : t.Idx) : IsReal (x i) :=
  isReal_of_abs_lt_inf (x i) (Host.reduce_andi_all _ init hr hu j e i)

/-- `all (lo ≤ w)` over an array of words, the bound a scalar broadcast to the array: every word, read signed, is at
    least the bound read signed. -/
theorem lower_of_all {t : Shape} {axes : List (Fin t.rank)} (hb : S_.BroadcastsInDim t (![] : Fin 0 → Fin t.rank))
    (hr : t.ReducesTo axes S_) (hu : 0 < S_.numel) (x : IVec t 32) (lo : BitVec 32) (init : IVec S_ 1) (j : S_.Idx)
    (e₁ : Host.reduce IntOp.andi (cmpi .sge x (broadcastInDim t ![] hb (constantI S_ 32 lo))) init hr hu j = 1#1)
    (i : t.Idx) : lo.toInt ≤ (x i).toInt :=
  IntOp.cmpi_sge.1 (Host.reduce_andi_all _ init hr hu j e₁ i)

/-- The precondition, all ones, gives: each float input is real entry by entry, and no edge word is negative. -/
theorem of_pre (x0 : FVec Ideal S100000x12 .f32) (x1 : IVec S2x1600000 32) (x2 : FVec Ideal S12x128 .f32)
    (x3 : FVec Ideal S128 .f32) (x4 : FVec Ideal S128x64 .f32) (x5 : FVec Ideal S64 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, 0 ≤ (x1 i).toInt) := by
  -- the predicate at its one index is a conjunction of six `all`s
  have h0 := congrFun h ValueIdx.ix0
  dsimp only [fn, fn_part1, andi] at h0
  simp only [IntOp.andi_eq_one] at h0
  obtain ⟨⟨⟨⟨⟨h1, h2⟩, h3⟩, h4⟩, h5⟩, h6⟩ := h0
  refine ⟨isReal_of_all _ _ _ x0 _ _ h1, isReal_of_all _ _ _ x2 _ _ h2, isReal_of_all _ _ _ x3 _ _ h3,
    isReal_of_all _ _ _ x4 _ _ h4, isReal_of_all _ _ _ x5 _ _ h5, fun i => ?_⟩
  have hb := lower_of_all _ _ _ x1 0#32 _ _ h6 i
  have z : (0#32 : BitVec 32).toInt = 0 := by decide
  rw [z] at hb
  exact hb

end Cert.PreFacts

end
-- ==== Proof.LibGcnSpec.lean ====
/-
  The whole-array functions one graph-convolution layer is made of, index by index on the extended reals, for any
  extents: a matrix product from the zero accumulator; rows scaled by a column of per-row weights; the layer's
  combination `agg · w + h · (w · w) + b` of an aggregate, the layer's linear image, the weight column and a bias row; and
  the rectifier.
-/
import Idealize.ShloMosaic.Lib.ValueIdx

noncomputable section

open scoped BigOperators

namespace Cert.GcnSpec

open Idealize.ShloMosaic Idealize.ShloMosaic.ValueIdx

/-- The matrix product `X · W`: entry `(r, c)` is `∑ q, X (r, q) · W (q, c)`. -/
def mm {n k d : Nat} (X : (⟨2, ![n, k]⟩ : Shape).Idx → EReal) (W : (⟨2, ![k, d]⟩ : Shape).Idx → EReal) :
    (⟨2, ![n, d]⟩ : Shape).Idx → EReal :=
  fun i => ∑ q : Fin k, X (ix2 (⟨(i 0).val, idx2_lt0 i⟩ : Fin n) q) * W (ix2 q (⟨(i 1).val, idx2_lt1 i⟩ : Fin d))

/-- Row `r` of `H` scaled by the weight `w (r, 0)`. -/
def scaleRows {n d : Nat} (H : (⟨2, ![n, d]⟩ : Shape).Idx → EReal) (w : (⟨2, ![n, 1]⟩ : Shape).Idx → EReal) :
    (⟨2, ![n, d]⟩ : Shape).Idx → EReal :=
  fun i => H i * w (ix2 (⟨(i 0).val, idx2_lt0 i⟩ : Fin n) (0 : Fin 1))

/-- The layer's combination: `A (r, c) · w r + H (r, c) · (w r · w r) + b c`. -/
def combine {n d : Nat} (A H : (⟨2, ![n, d]⟩ : Shape).Idx → EReal) (w : (⟨2, ![n, 1]⟩ : Shape).Idx → EReal)
    (b : (⟨2, ![1, d]⟩ : Shape).Idx → EReal) : (⟨2, ![n, d]⟩ : Shape).Idx → EReal :=
  fun i => (A i * w (ix2 (⟨(i 0).val, idx2_lt0 i⟩ : Fin n) (0 : Fin 1))
      + H i * (w (ix2 (⟨(i 0).val, idx2_lt0 i⟩ : Fin n) (0 : Fin 1)) * w (ix2 (⟨(i 0).val, idx2_lt0 i⟩ : Fin n) (0 : Fin 1))))
    + b (ix2 (0 : Fin 1) (⟨(i 1).val, idx2_lt1 i⟩ : Fin d))

/-- The rectifier: the maximum with the float zero (kept as its word: both programs carry the same one). -/
def relu {s : Shape} (v : s.Idx → EReal) : s.Idx → EReal := fun i => max (v i) (Ideal.ofBits .f32 0x00000000#32)

theorem mm_apply {n k d : Nat} (X : (⟨2, ![n, k]⟩ : Shape).Idx → EReal) (W : (⟨2, ![k, d]⟩ : Shape).Idx → EReal) (r : Fin n) (c : Fin d) :
    mm X W (ix2 r c) = ∑ q : Fin k, X (ix2 r q) * W (ix2 q c) := rfl

theorem scaleRows_apply {n d : Nat} (H : (⟨2, ![n, d]⟩ : Shape).Idx → EReal) (w : (⟨2, ![n, 1]⟩ : Shape).Idx → EReal) (r : Fin n) (c : Fin d) :
    scaleRows H w (ix2 r c) = H (ix2 r c) * w (ix2 r (0 : Fin 1)) := rfl

theorem combine_apply {n d : Nat} (A H : (⟨2, ![n, d]⟩ : Shape).Idx → EReal) (w : (⟨2, ![n, 1]⟩ : Shape).Idx → EReal)
    (b : (⟨2, ![1, d]⟩ : Shape).Idx → EReal) (r : Fin n) (c : Fin d) :
    combine A H w b (ix2 r c) = (A (ix2 r c) * w (ix2 r (0 : Fin 1)) + H (ix2 r c) * (w (ix2 r (0 : Fin 1)) * w (ix2 r (0 : Fin 1))))
      + b (ix2 (0 : Fin 1) c) := rfl

theorem relu_apply {s : Shape} (v : s.Idx → EReal) (i : s.Idx) : relu v i = max (v i) (Ideal.ofBits .f32 0x00000000#32) := rfl

end Cert.GcnSpec

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KReg0.lean ====
/-
  The first kernel call's two output arrays after its 25 grid points, as whole-array functions of the arrays it is
  entered with: point `t` multiplies rows `4000 t … 4000 t + 3999` of `x` by the whole `W1` and writes them to the same
  rows of the first output, and the same rows scaled by the degree weights to the second; the 25 row blocks tile the
  100000 rows, so the first output ends as `x · W1` and the second as its rows scaled.
-/
import proofs.«401091_j22041772163615_3_alg».proof.Proof.Gen.KernelIdeal.Frame
import proofs.«401091_j22041772163615_3_alg».proof.Proof.LibGcnSpec
import proofs.«401091_j22041772163615_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

-- the TensorCore's buffer contents when the region is entered: every statement is at an arbitrary one
variable (V : (c : Dev nD) → (b : Ref sig .tc) → Buf (Elt Ideal) ((c : Thread nD τ).loc b))

/-! ## The body's arithmetic at one entry of a block -/

/-- The product's left operand index at output entry `i` and contraction position `q`: its row is `i`'s row … -/
theorem lhs_mm_0 (i : S4000x128.Idx) (q : dot_S4000x12_S12x128_S4000x128_1_0_0_1_n_n.contr.Idx) :
    (dot_S4000x12_S12x128_S4000x128_1_0_0_1_n_n.lhsIdx i q 0).val = (i 0).val := by
  unfold DotDims.lhsIdx
  rw [dif_neg (show ¬(0 : Fin S4000x12.rank) ∈ dot_S4000x12_S12x128_S4000x128_1_0_0_1_n_n.lhsBatch by decide), dif_pos (show (0 : Fin S4000x12.rank) ∈ dot_S4000x12_S12x128_S4000x128_1_0_0_1_n_n.lhsNonContracting by decide)]
  rfl
/-- … and its column is the contraction position. -/
theorem lhs_mm_1 (i : S4000x128.Idx) (q : dot_S4000x12_S12x128_S4000x128_1_0_0_1_n_n.contr.Idx) :
    (dot_S4000x12_S12x128_S4000x128_1_0_0_1_n_n.lhsIdx i q 1).val = (q ⟨0, by decide⟩).val :=
  dot_S4000x12_S12x128_S4000x128_1_0_0_1_n_n.lhsIdx_val_of_single rfl i q
/-- The right operand index: its row is the contraction position … -/
theorem rhs_mm_0 (i : S4000x128.Idx) (q : dot_S4000x12_S12x128_S4000x128_1_0_0_1_n_n.contr.Idx) :
    (dot_S4000x12_S12x128_S4000x128_1_0_0_1_n_n.rhsIdx i q 0).val = (q ⟨0, by decide⟩).val :=
  dot_S4000x12_S12x128_S4000x128_1_0_0_1_n_n.rhsIdx_val_of_single rfl i q
/-- … and its column is `i`'s column. -/
theorem rhs_mm_1 (i : S4000x128.Idx) (q : dot_S4000x12_S12x128_S4000x128_1_0_0_1_n_n.contr.Idx) :
    (dot_S4000x12_S12x128_S4000x128_1_0_0_1_n_n.rhsIdx i q 1).val = (i 1).val := by
  unfold DotDims.rhsIdx
  rw [dif_neg (show ¬(1 : Fin S12x128.rank) ∈ dot_S4000x12_S12x128_S4000x128_1_0_0_1_n_n.rhsBatch by decide), dif_pos (show (1 : Fin S12x128.rank) ∈ dot_S4000x12_S12x128_S4000x128_1_0_0_1_n_n.rhsNonContracting by decide)]
  rfl

/-- Entry `(p, q)` of the block product: the sum over the 12 features of the `x` block's row `p` against column `q` of
    `W1` (the format changes are the identity on extended reals, and the accumulator starts at zero). -/
theorem pay1_apply (a : Vec Ideal S4000x12 .f32) (b : Vec Ideal S12x128 .f32) (p : Fin 4000) (q : Fin 128) :
    k0_pay1 (F := Ideal) a b (ix2 p q) = ∑ k : Fin 12, a (ix2 p k) * b (ix2 k q) := by
  unfold k0_pay1
  refine (Ideal.matmul_constant_zero_apply dot_S4000x12_S12x128_S4000x128_1_0_0_1_n_n none _ _ (ix2 p q)).trans ?_
  rw [← Equiv.sum_comp (ValueIdx.contrEquiv1 dot_S4000x12_S12x128_S4000x128_1_0_0_1_n_n 12 rfl rfl).symm]
  refine Finset.sum_congr rfl fun k _ => ?_
  have hk := ValueIdx.contrEquiv1_symm_val dot_S4000x12_S12x128_S4000x128_1_0_0_1_n_n 12 rfl rfl k
  have el : dot_S4000x12_S12x128_S4000x128_1_0_0_1_n_n.lhsIdx (ix2 p q) ((ValueIdx.contrEquiv1 dot_S4000x12_S12x128_S4000x128_1_0_0_1_n_n 12 rfl rfl).symm k) = ix2 p k := funext fun ax => Fin.ext (by
    match ax with
    | ⟨0, _⟩ => exact lhs_mm_0 _ _
    | ⟨1, _⟩ => exact (lhs_mm_1 _ _).trans hk)
  have er : dot_S4000x12_S12x128_S4000x128_1_0_0_1_n_n.rhsIdx (ix2 p q) ((ValueIdx.contrEquiv1 dot_S4000x12_S12x128_S4000x128_1_0_0_1_n_n 12 rfl rfl).symm k) = ix2 k q := funext fun ax => Fin.ext (by
    match ax with
    | ⟨0, _⟩ => exact (rhs_mm_0 _ _).trans hk
    | ⟨1, _⟩ => exact rhs_mm_1 _ _)
  rw [el, er]
  rfl

/-- Entry `(p, q)` of the scaled block: the product's entry times the weight of row `p`. -/
theorem pay2_apply (a : Vec Ideal S4000x12 .f32) (b : Vec Ideal S12x128 .f32) (w : Vec Ideal S4000x1 .f32) (p : Fin 4000) (q : Fin 128) :
    k0_pay2 (F := Ideal) a b w (ix2 p q) = (∑ k : Fin 12, a (ix2 p k) * b (ix2 k q)) * w (ix2 p (0 : Fin 1)) := by
  unfold k0_pay2
  show k0_pay1 (F := Ideal) a b (ix2 p q) * broadcastTo S4000x128 (shapeCast S4000x1 w shapeCasts_S4000x1_S4000x1) broadcasts_S4000x1_S4000x128 (ix2 p q) = _
  rw [pay1_apply, shapeCast_self, Keepdims.broadcastTo_a1_ab_apply]

/-! ## Where each window's block sits in its array -/

/-- The zero offsets of a whole-block access, as the constant function. -/
theorem hz : (![0, 0] : Fin 2 → Nat) = fun _ => 0 := funext fun a => by fin_cases a <;> rfl

/-- The index maps over the 25 grid points: the `x` block, the weight block and both output blocks share one row-block
    number, which is at most 24; `W1` is always its whole array; every column-block number is zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_4.index t (0 : Fin 2) = win0_3.index t (0 : Fin 2) ∧ win0_4.index t (1 : Fin 2) = 0
    ∧ win0_3.index t (1 : Fin 2) = 0 ∧ win0_3.index t (0 : Fin 2) ≤ 24 :=
  (by decide +kernel : ∀ t : Fin grid0.N, _)

/-- Row `p` of the `x` block at point `t` is row `4000 · (block number) + p` of `x`. -/
theorem xblk_apply (c : Dev nD) (t : Fin cfg0.N) (p : Fin 4000) (k : Fin 12) (r : Fin 100000)
    (hr : r.val = win0_3.index t (0 : Fin 2) * 4000 + p.val) :
    iblk0 (F := Ideal) V c 0 t (ix2 p k) = V c main_arg0 (ix2 r k) := by
  obtain ⟨e00, e01, e10, e11, e20, e21, e40, e41, e31, e30⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 12 + 1 * k.val = k.val; omega

/-- The `W1` block at any point is `W1`. -/
theorem wblk_apply (c : Dev nD) (t : Fin cfg0.N) (k : Fin 12) (q : Fin 128) :
    iblk0 (F := Ideal) V c 1 t (ix2 k q) = V c main_arg2 (ix2 k q) := by
  obtain ⟨e00, e01, e10, e11, e20, e21, e40, e41, e31, e30⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 12 + 1 * k.val = k.val; omega
  | ⟨1, _⟩ => show win0_1.index t (1 : Fin 2) * 128 + 1 * q.val = q.val; omega

/-- Row `p` of the weight block at point `t` is row `4000 · (block number) + p` of the weight column. -/
theorem dblk_apply (c : Dev nD) (t : Fin cfg0.N) (p : Fin 4000) (r : Fin 100000)
    (hr : r.val = win0_3.index t (0 : Fin 2) * 4000 + p.val) :
    iblk0 (F := Ideal) V c 2 t (ix2 p (0 : Fin 1)) = V c main_v11 (ix2 r (0 : Fin 1)) := by
  obtain ⟨e00, e01, e10, e11, e20, e21, e40, e41, e31, e30⟩ := idx_facts t
  show V c main_v11 (((cfg0.win 2).blk t).view.emb (ix2 p (0 : Fin 1))) = V c main_v11 (ix2 r (0 : Fin 1))
  refine congrArg (V c main_v11) (funext fun a => Fin.ext ?_)
  match a with
  | ⟨0, _⟩ => show win0_2.index t (0 : Fin 2) * 4000 + 1 * p.val = r.val; omega
  | ⟨1, _⟩ => show win0_2.index t (1 : Fin 2) * 1 + 1 * (0 : Fin 1).val = (0 : Fin 1).val; omega

/-- Entry `(p, q)` of the first output's block at point `t` sits at row `4000 · (block number) + p`, column `q`. -/
theorem oblk3_emb (t : Fin cfg0.N) (p : Fin 4000) (q : Fin 128) (r : Fin 100000)
    (hr : r.val = win0_3.index t (0 : Fin 2) * 4000 + p.val) :
    ((cfg0.win 3).blk t).view.emb (ix2 p q) = (ix2 r q : S100000x128.Idx) := by
  obtain ⟨e00, e01, e10, e11, e20, e21, e40, e41, e31, e30⟩ := idx_facts t
  funext a; apply Fin.ext
  match a with
  | ⟨0, _⟩ => show win0_3.index t (0 : Fin 2) * 4000 + 1 * p.val = r.val; omega
  | ⟨1, _⟩ => show win0_3.index t (1 : Fin 2) * 128 + 1 * q.val = q.val; omega

/-- Entry `(p, q)` of the second output's block at point `t` sits at the same place of its array. -/
theorem oblk4_emb (t : Fin cfg0.N) (p : Fin 4000) (q : Fin 128) (r : Fin 100000)
    (hr : r.val = win0_3.index t (0 : Fin 2) * 4000 + p.val) :
    ((cfg0.win 4).blk t).view.emb (ix2 p q) = (ix2 r q : S100000x128.Idx) := by
  obtain ⟨e00, e01, e10, e11, e20, e21, e40, e41, e31, e30⟩ := idx_facts t
  funext a; apply Fin.ext
  match a with
  | ⟨0, _⟩ => show win0_4.index t (0 : Fin 2) * 4000 + 1 * p.val = r.val; omega
  | ⟨1, _⟩ => show win0_4.index t (1 : Fin 2) * 128 + 1 * q.val = q.val; omega

/-! ## What each point writes back -/

/-- Point `t` writes back, to the first output, its block of `x · W1`. -/
theorem flushed3_eq (c : Dev nD) (t : Fin cfg0.N) :
    (dat0 (F := Ideal) V c).flushed 3 t
      = ((cfg0.win 3).blk t).view.read (Elt Ideal) (mm (n := 100000) (k := 12) (d := 128) (V c main_arg0) (V c main_arg2)) := by
  show (cfg0.win 3).cut (grid0.coords t) ((dat0 (F := Ideal) V c).after 3 t) = _
  rw [after0_3]
  unfold out0_3
  rw [View.canon_unit_zero hz]
  simp only [View.ld_unit_zero (S := S4000x12) hz, View.ld_unit_zero (S := S12x128) hz]
  obtain ⟨e00, e01, e10, e11, e20, e21, e40, e41, e31, e30⟩ := idx_facts t
  funext y
  obtain ⟨p, q, rfl⟩ : ∃ (p : Fin 4000) (q : Fin 128), y = ix2 p q := ⟨y 0, y 1, eq_ix2 y⟩
  have hlt : win0_3.index t (0 : Fin 2) * 4000 + p.val < 100000 := by have := p.isLt; omega
  show k0_pay1 (F := Ideal) (iblk0 V c 0 t) (iblk0 V c 1 t) (ix2 p q)
    = mm (n := 100000) (k := 12) (d := 128) (V c main_arg0) (V c main_arg2) (((cfg0.win 3).blk t).view.emb (ix2 p q))
  rw [oblk3_emb t p q ⟨_, hlt⟩ rfl, mm_apply]
  refine (pay1_apply (iblk0 V c 0 t) (iblk0 V c 1 t) p q).trans ?_
  refine Finset.sum_congr rfl fun k _ => ?_
  rw [xblk_apply V c t p k ⟨_, hlt⟩ rfl, wblk_apply V c t k q]

/-- Point `t` writes back, to the second output, its block of `x · W1` with every row scaled by its weight. -/
theorem flushed4_eq (c : Dev nD) (t : Fin cfg0.N) :
    (dat0 (F := Ideal) V c).flushed 4 t
      = ((cfg0.win 4).blk t).view.read (Elt Ideal)
          (scaleRows (n := 100000) (d := 128) (mm (n := 100000) (k := 12) (d := 128) (V c main_arg0) (V c main_arg2)) (V c main_v11)) := by
  show (cfg0.win 4).cut (grid0.coords t) ((dat0 (F := Ideal) V c).after 4 t) = _
  rw [after0_4]
  unfold out0_4
  rw [View.canon_unit_zero hz]
  simp only [View.ld_unit_zero (S := S4000x12) hz, View.ld_unit_zero (S := S12x128) hz, View.ld_unit_zero (S := S4000x1) hz]
  obtain ⟨e00, e01, e10, e11, e20, e21, e40, e41, e31, e30⟩ := idx_facts t
  funext y
  obtain ⟨p, q, rfl⟩ : ∃ (p : Fin 4000) (q : Fin 128), y = ix2 p q := ⟨y 0, y 1, eq_ix2 y⟩
  have hlt : win0_3.index t (0 : Fin 2) * 4000 + p.val < 100000 := by have := p.isLt; omega
  show k0_pay2 (F := Ideal) (iblk0 V c 0 t) (iblk0 V c 1 t) (iblk0 V c 2 t) (ix2 p q)
    = scaleRows (n := 100000) (d := 128) (mm (n := 100000) (k := 12) (d := 128) (V c main_arg0) (V c main_arg2)) (V c main_v11)
        (((cfg0.win 4).blk t).view.emb (ix2 p q))
  rw [oblk4_emb t p q ⟨_, hlt⟩ rfl, scaleRows_apply, mm_apply]
  refine (pay2_apply (iblk0 V c 0 t) (iblk0 V c 1 t) (iblk0 V c 2 t) p q).trans ?_
  rw [dblk_apply V c t p ⟨_, hlt⟩ rfl]
  refine congrArg (· * V c main_v11 (ix2 (⟨_, hlt⟩ : Fin 100000) (0 : Fin 1))) ?_
  refine Finset.sum_congr rfl fun k _ => ?_
  rw [xblk_apply V c t p k ⟨_, hlt⟩ rfl, wblk_apply V c t k q]

/-! ## The 25 row blocks tile the 100000 rows -/

/-- Every row-block number below 25 is some point's. -/
theorem idx_onto3 : ∀ b : Fin 25, ∃ t : Fin cfg0.N, win0_3.index t = ![b.val, 0] :=
  (by decide +kernel : ∀ b : Fin 25, ∃ t : Fin grid0.N, win0_3.index t = ![b.val, 0])
theorem idx_onto4 : ∀ b : Fin 25, ∃ t : Fin cfg0.N, win0_4.index t = ![b.val, 0] :=
  (by decide +kernel : ∀ b : Fin 25, ∃ t : Fin grid0.N, win0_4.index t = ![b.val, 0])

/-- An entry of the first output is in point `t`'s block iff each coordinate is in the block's range on its axis. -/
theorem mem_blk3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v14_0).slice (win0_3.rect t)).set ↔ _
  rw [View.set_slice_whole, Rect.mem_set_unit]
  exact Iff.rfl
/-- The same for the second output. -/
theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v14_1).slice (win0_4.rect t)).set ↔ _
  rw [View.set_slice_whole, Rect.mem_set_unit]
  exact Iff.rfl

/-- Row `r` of the first output is written by the point whose row-block number is `r / 4000`. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto3 ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega
/-- The same for the second output. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto4 ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-! ## The two arrays after the region -/

/-- The first output array (the unscaled product) after the region. -/
theorem final3 (c : Dev nD) :
    (dat0 (F := Ideal) V c).arrAt 3 cfg0.N = mm (n := 100000) (k := 12) (d := 128) (V c main_arg0) (V c main_arg2) :=
  (dat0 (F := Ideal) V c).arrAt_eq_of_cover 3 (mm (n := 100000) (k := 12) (d := 128) (V c main_arg0) (V c main_arg2))
    (fun t _ => flushed3_eq V c t) cover3

/-- The second output array (the product's rows scaled by the weight column) after the region. -/
theorem final4 (c : Dev nD) :
    (dat0 (F := Ideal) V c).arrAt 4 cfg0.N
      = scaleRows (n := 100000) (d := 128) (mm (n := 100000) (k := 12) (d := 128) (V c main_arg0) (V c main_arg2)) (V c main_v11) :=
  (dat0 (F := Ideal) V c).arrAt_eq_of_cover 4
    (scaleRows (n := 100000) (d := 128) (mm (n := 100000) (k := 12) (d := 128) (V c main_arg0) (V c main_arg2)) (V c main_v11))
    (fun t _ => flushed4_eq V c t) cover4

end Cert.KernelIdeal.Reg0

end
-- ==== Proof.KReg1.lean ====
/-
  The second pallas_call's two output arrays after its 25 grid points, as whole-array functions of the arrays it is
  entered with: point `t` takes rows `4000 t … 4000 t + 3999` of the aggregate and of the first layer's linear image,
  forms the layer's combination with the weight column and the bias row, rectifies it, multiplies by the whole `W2` and
  writes the result to the same rows of the first output, and those rows scaled by the weights to the second; the 25 row
  blocks tile the 100000 rows.
-/
import proofs.«401091_j22041772163615_3_alg».proof.Proof.Gen.KernelIdeal.Frame
import proofs.«401091_j22041772163615_3_alg».proof.Proof.LibGcnSpec
import proofs.«401091_j22041772163615_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

-- the TensorCore's buffer contents when the region is entered: every statement is at an arbitrary one
variable (V : (c : Dev nD) → (b : Ref sig .tc) → Buf (Elt Ideal) ((c : Thread nD τ).loc b))

/-! ## One row block's arithmetic, read at an index -/

/-- The combination `A · w + H · (w · w) + b` of a row block followed by the maximum with the float zero, read at
    `(p, k)`: the casts of a block to its own shape are the identity, the weight column and its square are read at row
    `p`, the bias row at column `k`. -/
theorem rectified_apply (w : Vec Ideal S4000x1 .f32) (A H : Vec Ideal S4000x128 .f32) (b : Vec Ideal S1x128 .f32)
    (p : Fin 4000) (k : Fin 128) :
    (maximumf
        (addf
          (addf
            (mulf (shapeCast S4000x128 A shapeCasts_S4000x128_S4000x128)
              (broadcastTo S4000x128 (k1_pay1 (F := Ideal) w) broadcasts_S4000x1_S4000x128))
            (mulf (shapeCast S4000x128 H shapeCasts_S4000x128_S4000x128)
              (broadcastTo S4000x128 (mulf (k1_pay1 (F := Ideal) w) (k1_pay1 (F := Ideal) w)) broadcasts_S4000x1_S4000x128)))
          (broadcastTo S4000x128 (shapeCast S1x128 b shapeCasts_S1x128_S1x128) broadcasts_S1x128_S4000x128))
        (broadcast S4000x128 (Scalar.ofBits (F := Ideal) .f32 0x00000000#32)) : FVec Ideal S4000x128 .f32) (ix2 p k)
      = relu (combine (n := 4000) (d := 128) A H w b) (ix2 p k) := by
  unfold k1_pay1
  rw [relu_apply, combine_apply, maximumf_apply, addf_apply, addf_apply, mulf_apply, mulf_apply]
  simp only [shapeCast_self]
  rw [Keepdims.broadcastTo_a1_ab_apply, Keepdims.broadcastTo_a1_ab_apply, broadcastTo_1b_ab_apply, mulf_apply, broadcast_apply]
  rfl

/-- The product's left operand index at output index `i` and contraction index `q`: its row is `i`'s row, -/
theorem lhs_w2_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- its column the contraction coordinate; -/
theorem lhs_w2_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- the right operand's row is the contraction coordinate, -/
theorem rhs_w2_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- its column `i`'s column. -/
theorem rhs_w2_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- A `[4000,128] × [128,64]` block product from the zero accumulator, read at `(p, q)`: the sum over the 128 contraction
    coordinates of the operands' products. -/
theorem blockProduct_apply (X : FVec Ideal S4000x128 .bf16) (W : FVec Ideal S128x64 .bf16) (p : Fin 4000) (q : Fin 64) :
    matmul dot_S4000x128_S128x64_S4000x64_1_0_0_1_n_n none X W (constant (F := Ideal) S4000x64 .f32 0x00000000#32) (ix2 p q)
      = ∑ k : Fin 128, X (ix2 p k) * W (ix2 k q) := by
  simp only [matmul]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs_w2_0 _ _
    | ⟨1, _⟩ => exact (lhs_w2_1 _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs_w2_0 _ _).trans hk
    | ⟨1, _⟩ => exact rhs_w2_1 _ _)
  rw [el, er]

/-- What the body stores to the first output's block, read at `(p, q)`: row `p` of the rectified combination of the
    blocks times column `q` of `W2` (the format changes are the identity on the extended reals). -/
theorem linearImage_apply (w : Vec Ideal S4000x1 .f32) (A H : Vec Ideal S4000x128 .f32) (b : Vec Ideal S1x128 .f32)
    (W : Vec Ideal S128x64 .f32) (p : Fin 4000) (q : Fin 64) :
    k1_pay2 (F := Ideal) w A H b W (ix2 p q)
      = ∑ k : Fin 128, relu (combine (n := 4000) (d := 128) A H w b) (ix2 p k) * W (ix2 k q) := by
  unfold k1_pay2
  refine (blockProduct_apply _ _ p q).trans ?_
  refine Finset.sum_congr rfl fun k _ => ?_
  rw [truncf_apply, truncf_apply]
  exact congrArg (· * W (ix2 k q)) (rectified_apply w A H b p k)

/-- What the body stores to the second output's block, read at `(p, q)`: the same entry times the weight of row `p`. -/
theorem scaledImage_apply (w : Vec Ideal S4000x1 .f32) (A H : Vec Ideal S4000x128 .f32) (b : Vec Ideal S1x128 .f32)
    (W : Vec Ideal S128x64 .f32) (p : Fin 4000) (q : Fin 64) :
    k1_pay3 (F := Ideal) w A H b W (ix2 p q)
      = (∑ k : Fin 128, relu (combine (n := 4000) (d := 128) A H w b) (ix2 p k) * W (ix2 k q)) * w (ix2 p (0 : Fin 1)) := by
  unfold k1_pay3 k1_pay1
  rw [truncf_apply, mulf_apply, linearImage_apply, shapeCast_self, Keepdims.broadcastTo_a1_ab_apply]

/-! ## Where the blocks lie in their arrays -/

theorem zeroOffsets : (![0, 0] : Fin 2 → Nat) = fun _ => 0 := funext fun a => by fin_cases a <;> rfl

/-- The block index of each window at point `t`: the row windows (aggregate, linear image, weight column, the two
    outputs) are at block row `t`, block column 0; the bias row and `W2` are whole at every point. Decided over the 25
    points. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- There are 25 points. -/
theorem point_lt (t : Fin cfg1.N) : t.val < 25 := by
  have h : t.val < grid1.N := t.isLt
  rw [N_1] at h
  exact h

/-- Row `p` of the block at point `t` is row `4000 t + p` of the array. -/
def rowOf (t : Fin cfg1.N) (p : Fin 4000) : Fin 100000 :=
  ⟨t.val * 4000 + p.val, by have := point_lt t; have := p.isLt; omega⟩

/-- The aggregate's block at point `t` is rows `4000 t …` of the aggregate. -/
theorem aggBlock_apply (c : Dev nD) (t : Fin cfg1.N) (p : Fin 4000) (k : Fin 128) :
    iblk1 (F := Ideal) V c 0 t (ix2 p k) = V c main_v24 (ix2 (rowOf t p) k) := by
  obtain ⟨e0, e1, -⟩ := blockIndex t
  show V c main_v24 (((cfg1.win 0).blk t).view.emb (ix2 p k)) = V c main_v24 (ix2 (rowOf t p) k)
  refine congrArg (V c main_v24) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

/-- The first layer's linear image: the same rows. -/
theorem linBlock_apply (c : Dev nD) (t : Fin cfg1.N) (p : Fin 4000) (k : Fin 128) :
    iblk1 (F := Ideal) V c 1 t (ix2 p k) = V c main_v14_0 (ix2 (rowOf t p) k) := by
  obtain ⟨-, -, e0, e1, -⟩ := blockIndex t
  show V c main_v14_0 (((cfg1.win 1).blk t).view.emb (ix2 p k)) = V c main_v14_0 (ix2 (rowOf t p) k)
  refine congrArg (V c main_v14_0) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

/-- The weight column: the same rows. -/
theorem weightBlock_apply (c : Dev nD) (t : Fin cfg1.N) (p : Fin 4000) :
    iblk1 (F := Ideal) V c 2 t (ix2 p (0 : Fin 1)) = V c main_v11 (ix2 (rowOf t p) (0 : Fin 1)) := by
  obtain ⟨-, -, -, -, e0, e1, -⟩ := blockIndex t
  show V c main_v11 (((cfg1.win 2).blk t).view.emb (ix2 p (0 : Fin 1))) = V c main_v11 (ix2 (rowOf t p) (0 : Fin 1))
  refine congrArg (V c main_v11) (funext fun a => Fin.ext ?_)
  match a with
  | ⟨0, _⟩ => show win1_2.index t (0 : Fin 2) * 4000 + 1 * p.val = t.val * 4000 + p.val; omega
  | ⟨1, _⟩ => show win1_2.index t (1 : Fin 2) * 1 + 1 * 0 = 0; omega

/-- The bias row's block is the whole bias row at every point. -/
theorem biasBlock_apply (c : Dev nD) (t : Fin cfg1.N) (k : Fin 128) :
    iblk1 (F := Ideal) V c 3 t (ix2 (0 : Fin 1) k) = V c main_v12 (ix2 (0 : Fin 1) k) := by
  obtain ⟨-, -, -, -, -, -, e0, e1, -⟩ := blockIndex t
  show V c main_v12 (((cfg1.win 3).blk t).view.emb (ix2 (0 : Fin 1) k)) = V c main_v12 (ix2 (0 : Fin 1) k)
  refine congrArg (V c main_v12) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- `W2`'s block is the whole of `W2` at every point. -/
theorem w2Block_apply (c : Dev nD) (t : Fin cfg1.N) (k : Fin 128) (q : Fin 64) :
    iblk1 (F := Ideal) V c 4 t (ix2 k q) = V c main_arg4 (ix2 k q) := by
  obtain ⟨-, -, -, -, -, -, -, -, e0, e1, -⟩ := blockIndex t
  show V c main_arg4 (((cfg1.win 4).blk t).view.emb (ix2 k q)) = V c main_arg4 (ix2 k q)
  refine congrArg (V c main_arg4) (funext fun a => Fin.ext ?_)
  match a with
  | ⟨0, _⟩ => show win1_4.index t (0 : Fin 2) * 128 + 1 * k.val = k.val; omega
  | ⟨1, _⟩ => show win1_4.index t (1 : Fin 2) * 64 + 1 * q.val = q.val; omega

/-- The rectified combination of the blocks at point `t` is rows `4000 t …` of the rectified combination of the arrays. -/
theorem rectifiedBlock_apply (c : Dev nD) (t : Fin cfg1.N) (p : Fin 4000) (k : Fin 128) :
    relu (combine (n := 4000) (d := 128) (iblk1 (F := Ideal) V c 0 t) (iblk1 (F := Ideal) V c 1 t) (iblk1 (F := Ideal) V c 2 t) (iblk1 (F := Ideal) V c 3 t)) (ix2 p k)
      = relu (combine (n := 100000) (d := 128) (V c main_v24) (V c main_v14_0) (V c main_v11) (V c main_v12)) (ix2 (rowOf t p) k) := by
  rw [relu_apply, relu_apply, combine_apply, combine_apply, aggBlock_apply, linBlock_apply, weightBlock_apply, biasBlock_apply]

/-! ## The first output: the unscaled linear image -/

/-- Entry `(p, q)` of the first output's block at point `t` is entry `(4000 t + p, q)` of its array. -/
theorem linearRows_emb (t : Fin cfg1.N) (p : Fin 4000) (q : Fin 64) :
    ((cfg1.win 5).blk t).view.emb (ix2 p q) = (ix2 (rowOf t p) q : S100000x64.Idx) := by
  obtain ⟨-, -, -, -, -, -, -, -, -, -, e0, e1, -⟩ := blockIndex t
  refine funext fun a => Fin.ext ?_
  match a with
  | ⟨0, _⟩ => show win1_5.index t (0 : Fin 2) * 4000 + 1 * p.val = t.val * 4000 + p.val; omega
  | ⟨1, _⟩ => show win1_5.index t (1 : Fin 2) * 64 + 1 * q.val = q.val; omega

/-- What point `t` writes back to the first output is rows `4000 t …` of the product of the rectified combination with `W2`. -/
theorem linearRows_writeBack (c : Dev nD) (t : Fin cfg1.N) :
    (dat1 (F := Ideal) V c).flushed 5 t = ((cfg1.win 5).blk t).view.read (Elt Ideal)
      (mm (n := 100000) (k := 128) (d := 64)
          (relu (combine (n := 100000) (d := 128) (V c main_v24) (V c main_v14_0) (V c main_v11) (V c main_v12))) (V c main_arg4)) := by
  show (cfg1.win 5).cut (grid1.coords t) ((dat1 V c).after 5 t) = _
  rw [after1_5]
  unfold out1_5
  rw [View.canon_unit_zero zeroOffsets]
  simp only [View.ld_unit_zero (S := S4000x1) zeroOffsets, View.ld_unit_zero (S := S4000x128) zeroOffsets,
    View.ld_unit_zero (S := S1x128) zeroOffsets, View.ld_unit_zero (S := S128x64) zeroOffsets]
  funext y
  obtain ⟨p, q, rfl⟩ : ∃ (p : Fin 4000) (q : Fin 64), y = ix2 p q := ⟨y 0, y 1, eq_ix2 y⟩
  show k1_pay2 (F := Ideal) (iblk1 V c 2 t) (iblk1 V c 0 t) (iblk1 V c 1 t) (iblk1 V c 3 t) (iblk1 V c 4 t) (ix2 p q)
    = mm (n := 100000) (k := 128) (d := 64)
          (relu (combine (n := 100000) (d := 128) (V c main_v24) (V c main_v14_0) (V c main_v11) (V c main_v12))) (V c main_arg4)
        (((cfg1.win 5).blk t).view.emb (ix2 p q))
  refine (linearImage_apply (iblk1 V c 2 t) (iblk1 V c 0 t) (iblk1 V c 1 t) (iblk1 V c 3 t) (iblk1 V c 4 t) p q).trans ?_
  rw [linearRows_emb, mm_apply]
  refine Finset.sum_congr rfl fun k _ => ?_
  rw [rectifiedBlock_apply, w2Block_apply]

/-- An index of the first output is in point `t`'s block iff each coordinate is in the block's range on its axis. -/
theorem mem_linearRows (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v25_0).slice (win1_5.rect t)).set ↔ _
  rw [View.set_slice_whole, Rect.mem_set_unit]
  exact Iff.rfl

/-- The 25 row blocks tile the 100000 rows: row `r` lies in the block of point `r / 4000`. -/
theorem linearRows_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 4000 < grid1.N := by rw [N_1]; omega
  obtain ⟨t, ht⟩ : ∃ t : Fin cfg1.N, t.val = (i 0).val / 4000 := ⟨⟨_, hN⟩, rfl⟩
  obtain ⟨-, -, -, -, -, -, -, -, -, -, e0, e1, -⟩ := blockIndex t
  refine ⟨t, flush1_5 t, ?_⟩
  rw [mem_linearRows]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- The first output array (the second layer's unscaled linear image) after the region. -/
theorem final5 (c : Dev nD) :
    (dat1 (F := Ideal) V c).arrAt 5 cfg1.N
      = mm (n := 100000) (k := 128) (d := 64)
          (relu (combine (n := 100000) (d := 128) (V c main_v24) (V c main_v14_0) (V c main_v11) (V c main_v12))) (V c main_arg4) :=
  (dat1 (F := Ideal) V c).arrAt_eq_of_cover 5 _ (fun t _ => linearRows_writeBack V c t) linearRows_cover

/-! ## The second output: the linear image with its rows scaled by the weights -/

/-- Entry `(p, q)` of the second output's block at point `t` is entry `(4000 t + p, q)` of its array. -/
theorem scaledRows_emb (t : Fin cfg1.N) (p : Fin 4000) (q : Fin 64) :
    ((cfg1.win 6).blk t).view.emb (ix2 p q) = (ix2 (rowOf t p) q : S100000x64.Idx) := by
  obtain ⟨-, -, -, -, -, -, -, -, -, -, -, -, e0, e1⟩ := blockIndex t
  refine funext fun a => Fin.ext ?_
  match a with
  | ⟨0, _⟩ => show win1_6.index t (0 : Fin 2) * 4000 + 1 * p.val = t.val * 4000 + p.val; omega
  | ⟨1, _⟩ => show win1_6.index t (1 : Fin 2) * 64 + 1 * q.val = q.val; omega

/-- What point `t` writes back to the second output is rows `4000 t …` of that product with each row scaled by its weight. -/
theorem scaledRows_writeBack (c : Dev nD) (t : Fin cfg1.N) :
    (dat1 (F := Ideal) V c).flushed 6 t = ((cfg1.win 6).blk t).view.read (Elt Ideal)
      (scaleRows (n := 100000) (d := 64) (mm (n := 100000) (k := 128) (d := 64)
          (relu (combine (n := 100000) (d := 128) (V c main_v24) (V c main_v14_0) (V c main_v11) (V c main_v12))) (V c main_arg4)) (V c main_v11)) := by
  show (cfg1.win 6).cut (grid1.coords t) ((dat1 V c).after 6 t) = _
  rw [after1_6]
  unfold out1_6
  rw [View.canon_unit_zero zeroOffsets]
  simp only [View.ld_unit_zero (S := S4000x1) zeroOffsets, View.ld_unit_zero (S := S4000x128) zeroOffsets,
    View.ld_unit_zero (S := S1x128) zeroOffsets, View.ld_unit_zero (S := S128x64) zeroOffsets]
  funext y
  obtain ⟨p, q, rfl⟩ : ∃ (p : Fin 4000) (q : Fin 64), y = ix2 p q := ⟨y 0, y 1, eq_ix2 y⟩
  show k1_pay3 (F := Ideal) (iblk1 V c 2 t) (iblk1 V c 0 t) (iblk1 V c 1 t) (iblk1 V c 3 t) (iblk1 V c 4 t) (ix2 p q)
    = scaleRows (n := 100000) (d := 64) (mm (n := 100000) (k := 128) (d := 64)
          (relu (combine (n := 100000) (d := 128) (V c main_v24) (V c main_v14_0) (V c main_v11) (V c main_v12))) (V c main_arg4)) (V c main_v11)
        (((cfg1.win 6).blk t).view.emb (ix2 p q))
  refine (scaledImage_apply (iblk1 V c 2 t) (iblk1 V c 0 t) (iblk1 V c 1 t) (iblk1 V c 3 t) (iblk1 V c 4 t) p q).trans ?_
  rw [scaledRows_emb, scaleRows_apply, mm_apply, weightBlock_apply]
  refine congrArg (· * V c main_v11 (ix2 (rowOf t p) (0 : Fin 1))) (Finset.sum_congr rfl fun k _ => ?_)
  rw [rectifiedBlock_apply, w2Block_apply]

/-- An index of the second output is in point `t`'s block iff each coordinate is in the block's range on its axis. -/
theorem mem_scaledRows (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v25_1).slice (win1_6.rect t)).set ↔ _
  rw [View.set_slice_whole, Rect.mem_set_unit]
  exact Iff.rfl

/-- Its 25 row blocks tile the 100000 rows likewise. -/
theorem scaledRows_cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 4000 < grid1.N := by rw [N_1]; omega
  obtain ⟨t, ht⟩ : ∃ t : Fin cfg1.N, t.val = (i 0).val / 4000 := ⟨⟨_, hN⟩, rfl⟩
  obtain ⟨-, -, -, -, -, -, -, -, -, -, -, -, e0, e1⟩ := blockIndex t
  refine ⟨t, flush1_6 t, ?_⟩
  rw [mem_scaledRows]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- The second output array (the same, rows scaled by the weight column) after the region. -/
theorem final6 (c : Dev nD) :
    (dat1 (F := Ideal) V c).arrAt 6 cfg1.N
      = scaleRows (n := 100000) (d := 64) (mm (n := 100000) (k := 128) (d := 64)
          (relu (combine (n := 100000) (d := 128) (V c main_v24) (V c main_v14_0) (V c main_v11) (V c main_v12))) (V c main_arg4)) (V c main_v11) :=
  (dat1 (F := Ideal) V c).arrAt_eq_of_cover 6 _ (fun t _ => scaledRows_writeBack V c t) scaledRows_cover

end Cert.KernelIdeal.Reg1

end
-- ==== Proof.KReg2.lean ====
/-
  The third pallas_call's output array after its 25 grid points, as a whole-array function of the arrays it is entered
  with: point `t` writes, to rows `4000 t … 4000 t + 3999`, the layer's combination of the same rows of the aggregate and
  of the second layer's linear image with the weight column and the bias row; the 25 row blocks tile the 100000 rows.
-/
import proofs.«401091_j22041772163615_3_alg».proof.Proof.Gen.KernelIdeal.Frame
import proofs.«401091_j22041772163615_3_alg».proof.Proof.LibGcnSpec
import proofs.«401091_j22041772163615_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

-- the TensorCore's buffer contents when the region is entered: every statement is at an arbitrary one
variable (V : (c : Dev nD) → (b : Ref sig .tc) → Buf (Elt Ideal) ((c : Thread nD τ).loc b))

/-! ## The body's arithmetic at one element -/

/-- The two zero offsets of a whole-block access are the constant zero function. -/
theorem zero_offsets : (![0, 0] : Fin 2 → Nat) = fun _ => 0 := funext fun a => by fin_cases a <;> rfl

/-- One element of what the body stores: at row `p` and column `q` of a block it is
    `a (p, q) · w p + h (p, q) · (w p · w p) + b q`, with `w` the block's weight column, `a` its aggregate rows, `h` its
    rows of the linear image and `b` the bias row. The casts are to the operands' own shapes, the two column broadcasts
    read the column at row `p`, the row broadcast reads the row at column `q`. -/
theorem pay_apply (w : Vec Ideal S4000x1 .f32) (a h : Vec Ideal S4000x64 .f32) (b : Vec Ideal S1x64 .f32)
    (p : Fin 4000) (q : Fin 64) :
    k2_pay1 (F := Ideal) w a h b (ix2 p q)
      = (a (ix2 p q) * w (ix2 p (0 : Fin 1)) + h (ix2 p q) * (w (ix2 p (0 : Fin 1)) * w (ix2 p (0 : Fin 1))))
        + b (ix2 (0 : Fin 1) q) := by
  unfold k2_pay1
  simp only [shapeCast_self]
  rw [addf_apply, addf_apply, mulf_apply, mulf_apply, Keepdims.broadcastTo_a1_ab_apply,
    Keepdims.broadcastTo_a1_ab_apply, mulf_apply, broadcastTo_1b_ab_apply]

/-! ## The windows' index maps over the grid -/

/-- The windows' index maps at each of the 25 grid points: the aggregate's, the linear image's and the weight
    column's row block is the output's row block, the bias row is always its one block, and the output's row block
    number stays below 25 on the one column block. -/
theorem idx_facts : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (0 : Fin 2) ≤ 24 ∧ win2_4.index t (1 : Fin 2) = 0 :=
  (by decide +kernel : ∀ t : Fin grid2.N, _)

/-- Every one of the 25 row blocks of the output is some grid point's. -/
theorem idx_onto : ∀ q0 : Fin 25, ∃ t : Fin cfg2.N, win2_4.index t = ![q0.val, 0] :=
  (by decide +kernel : ∀ q0 : Fin 25, ∃ t : Fin grid2.N, win2_4.index t = ![q0.val, 0])

/-! ## What one grid point writes back -/

/-- WHAT POINT `t` WRITES BACK is block `t` of the layer's combination of the four arrays as the region finds them:
    element `(p, q)` of the stored block is the body's arithmetic of the input blocks at `(p, q)`, `(p, 0)` and `(0, q)`,
    and each input block reads its array at the row `4000 · (block number) + p` the output block's element lies on. -/
theorem flushed_eq (c : Dev nD) (t : Fin cfg2.N) :
    (dat2 (F := Ideal) V c).flushed 4 t = ((cfg2.win 4).blk t).view.read (Elt Ideal)
      (combine (n := 100000) (d := 64) (V c main_v35) (V c main_v25_0) (V c main_v11) (V c main_v13)) := by
  show (cfg2.win 4).cut (grid2.coords t) ((dat2 V c).after 4 t) = _
  rw [after2_4]
  unfold out2_4
  rw [View.canon_unit_zero zero_offsets]
  simp only [View.ld_unit_zero (S := S4000x64) zero_offsets, View.ld_unit_zero (S := S4000x1) zero_offsets,
    View.ld_unit_zero (S := S1x64) zero_offsets]
  obtain ⟨e00, e01, e10, e11, e20, e21, e30, e31, b0, b1⟩ := idx_facts t
  funext y
  obtain ⟨p, q, rfl⟩ : ∃ (p : Fin 4000) (q : Fin 64), y = ix2 p q := ⟨y 0, y 1, eq_ix2 y⟩
  refine (pay_apply (iblk2 V c 2 t) (iblk2 V c 0 t) (iblk2 V c 1 t) (iblk2 V c 3 t) p q).trans ?_
  have hA : iblk2 V c 0 t (ix2 p q) = V c main_v35 (((cfg2.win 4).blk t).view.emb (ix2 p q)) := by
    show V c main_v35 (((cfg2.win 0).blk t).view.emb (ix2 p q)) = V c main_v35 (((cfg2.win 4).blk t).view.emb (ix2 p q))
    refine congrArg (V c main_v35) (funext fun a => Fin.ext ?_)
    match a with
    | ⟨0, _⟩ => show win2_0.index t (0 : Fin 2) * 4000 + 1 * p.val = win2_4.index t (0 : Fin 2) * 4000 + 1 * p.val; omega
    | ⟨1, _⟩ => show win2_0.index t (1 : Fin 2) * 64 + 1 * q.val = win2_4.index t (1 : Fin 2) * 64 + 1 * q.val; omega
  have hH : iblk2 V c 1 t (ix2 p q) = V c main_v25_0 (((cfg2.win 4).blk t).view.emb (ix2 p q)) := by
    show V c main_v25_0 (((cfg2.win 1).blk t).view.emb (ix2 p q)) = V c main_v25_0 (((cfg2.win 4).blk t).view.emb (ix2 p q))
    refine congrArg (V c main_v25_0) (funext fun a => Fin.ext ?_)
    match a with
    | ⟨0, _⟩ => show win2_1.index t (0 : Fin 2) * 4000 + 1 * p.val = win2_4.index t (0 : Fin 2) * 4000 + 1 * p.val; omega
    | ⟨1, _⟩ => show win2_1.index t (1 : Fin 2) * 64 + 1 * q.val = win2_4.index t (1 : Fin 2) * 64 + 1 * q.val; omega
  have hw : iblk2 V c 2 t (ix2 p (0 : Fin 1)) = V c main_v11 (ix2 (⟨((((cfg2.win 4).blk t).view.emb (ix2 p q)) 0).val,
      idx2_lt0 (n0 := 100000) (n1 := 64) (((cfg2.win 4).blk t).view.emb (ix2 p q))⟩ : Fin 100000) (0 : Fin 1)) := by
    show V c main_v11 (((cfg2.win 2).blk t).view.emb (ix2 p (0 : Fin 1))) = _
    refine congrArg (V c main_v11) (funext fun a => Fin.ext ?_)
    match a with
    | ⟨0, _⟩ => show win2_2.index t (0 : Fin 2) * 4000 + 1 * p.val = win2_4.index t (0 : Fin 2) * 4000 + 1 * p.val; omega
    | ⟨1, _⟩ => show win2_2.index t (1 : Fin 2) * 1 + 1 * 0 = 0; omega
  have hb : iblk2 V c 3 t (ix2 (0 : Fin 1) q) = V c main_v13 (ix2 (0 : Fin 1) (⟨((((cfg2.win 4).blk t).view.emb (ix2 p q)) 1).val,
      idx2_lt1 (n0 := 100000) (n1 := 64) (((cfg2.win 4).blk t).view.emb (ix2 p q))⟩ : Fin 64)) := by
    show V c main_v13 (((cfg2.win 3).blk t).view.emb (ix2 (0 : Fin 1) q)) = _
    refine congrArg (V c main_v13) (funext fun a => Fin.ext ?_)
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  rw [hA, hH, hw, hb]
  rfl

/-! ## The blocks tile the array -/

/-- An index of the array is in point `t`'s block iff each coordinate is in the block's range on its axis. -/
theorem mem_blk (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v36).slice (win2_4.rect t)).set ↔ _
  rw [View.set_slice_whole, Rect.mem_set_unit]
  exact Iff.rfl

/-- Every index of the array lies in some writing point's block: row `r` is in row block `r / 4000`, and the one column
    block holds all 64 columns. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 4000, by omega⟩
  have q0 : win2_4.index t (0 : Fin 2) = (i 0).val / 4000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 64 ≤ (i 1).val ∧ (i 1).val < win2_4.index t (1 : Fin 2) * 64 + 64; omega

/-! ## The array after the region -/

/-- The output array after the region. -/
theorem final4 (c : Dev nD) :
    (dat2 (F := Ideal) V c).arrAt 4 cfg2.N
      = combine (n := 100000) (d := 64) (V c main_v35) (V c main_v25_0) (V c main_v11) (V c main_v13) :=
  (dat2 (F := Ideal) V c).arrAt_eq_of_cover 4
    (combine (n := 100000) (d := 64) (V c main_v35) (V c main_v25_0) (V c main_v11) (V c main_v13))
    (fun t _ => flushed_eq V c t) cover

end Cert.KernelIdeal.Reg2

end
-- ==== Proof.KTerms.lean ====
/-
  The kernel program's intermediate arrays as whole-array functions of the six arguments, on the extended reals.

  `row`, `col`: the two rows of the edge list. `dinv`: the reciprocal square root of each node's degree (the number of
  edges ending at it, plus one for the self loop), `dcol` the same as a column. `h1 = x · W1`; `hp1` its rows scaled by
  `dinv`; `agg1` the sum, into each node, of the `hp1` rows of the sources of the edges ending at it; the first layer's
  output is the combination `agg1 · dinv + h1 · dinv² + b1`, rectified; `h2` is its product with `W2`, and `hp2`, `agg2`,
  `out` repeat the layer at width 64.
-/
import proofs.«401091_j22041772163615_3_alg».proof.Proof.Gen.KernelIdeal
import proofs.«401091_j22041772163615_3_alg».proof.Proof.LibGcnSpec

noncomputable section

namespace Cert.KernelIdeal.KV

open Idealize.ShloMosaic Cert.KernelIdeal Cert.KernelIdeal.Gen Cert.GcnSpec

variable (x0 : FVec Ideal S100000x12 .f32) (x1 : IVec S2x1600000 32) (x2 : FVec Ideal S12x128 .f32)
  (x3 : FVec Ideal S128 .f32) (x4 : FVec Ideal S128x64 .f32) (x5 : FVec Ideal S64 .f32)

/-- The edges' sources: row 0 of the edge list. -/
def row : IVec S1600000 32 :=
  shapeCast S1600000 (extractStridedSlice S1x1600000 ![0, 0] x1 slices_S2x1600000_S1x1600000_0_0) shapeCasts_S1x1600000_S1600000
/-- The edges' targets: row 1 of the edge list. -/
def col : IVec S1600000 32 :=
  shapeCast S1600000 (extractStridedSlice S1x1600000 ![1, 0] x1 slices_S2x1600000_S1x1600000_1_0) shapeCasts_S1x1600000_S1600000
/-- The targets with a negative word moved up by the node count (what an indexed update does to its indices). -/
def colN : IVec S1600000 32 :=
  select (cmpi .slt (col x1) (broadcastInDim S1600000 ![] bcast_S_S1600000 (constantI S_ 32 0#32)))
    (addi (col x1) (broadcastInDim S1600000 ![] bcast_S_S1600000 (constantI S_ 32 100000#32))) (col x1)
/-- `1 / √(degree + 1)` per node. -/
def dinv : FVec Ideal S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (col x1))
      (broadcastInDim S1600000 ![] bcast_S_S1600000 (constant S_ .f32 0x3F800000#32)))
    (broadcastInDim S100000 ![] bcast_S_S100000 (constant S_ .f32 0x3F800000#32)))
/-- The same as a column. -/
def dcol : FVec Ideal S100000x1 .f32 := shapeCast S100000x1 (dinv x1) shapeCasts_S100000_S100000x1
/-- The first bias as a row. -/
def b1row : FVec Ideal S1x128 .f32 := shapeCast S1x128 x3 shapeCasts_S128_S1x128
/-- The second bias as a row. -/
def b2row : FVec Ideal S1x64 .f32 := shapeCast S1x64 x5 shapeCasts_S64_S1x64
/-- `x · W1`. -/
def h1 : FVec Ideal S100000x128 .f32 := mm x0 x2
/-- `h1` with row `r` scaled by `dinv r`. -/
def hp1 : FVec Ideal S100000x128 .bf16 := scaleRows (h1 x0 x2) (dcol x1)
/-- Into each node, the sum of the `hp1` rows of the sources of the edges ending at it. -/
def agg1 : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (colN x1))
    (extf .f32 (Host.gather gather_S100000x128_S1600000x1_S1600000x128_1_0_n_n_0_1_1128 (hp1 x0 x1 x2)
      (broadcastInDim S1600000x1 ![0] bcast_S1600000_S1600000x1_0 (row x1))) bitsLt_bf16_f32)
/-- The rectified first layer times `W2`. -/
def h2 : FVec Ideal S100000x64 .f32 := mm (relu (combine (agg1 x0 x1 x2) (h1 x0 x2) (dcol x1) (b1row x3))) x4
/-- `h2` with row `r` scaled by `dinv r`. -/
def hp2 : FVec Ideal S100000x64 .bf16 := scaleRows (h2 x0 x1 x2 x3 x4) (dcol x1)
/-- Into each node, the sum of the `hp2` rows of the sources of the edges ending at it. -/
def agg2 : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (colN x1))
    (extf .f32 (Host.gather gather_S100000x64_S1600000x1_S1600000x64_1_0_n_n_0_1_164 (hp2 x0 x1 x2 x3 x4)
      (broadcastInDim S1600000x1 ![0] bcast_S1600000_S1600000x1_0 (row x1))) bitsLt_bf16_f32)
/-- The second layer's output: what the kernel program returns. -/
def out : FVec Ideal S100000x64 .f32 := combine (agg2 x0 x1 x2 x3 x4) (h2 x0 x1 x2 x3 x4) (dcol x1) (b2row x5)

end Cert.KernelIdeal.KV

end
-- ==== Proof.KFold.lean ====
/-
  The kernel program's result buffer at the end of @main, as the whole-array function `KV.out` of the six arguments.

  @main is eight segments: a stretch of host operations (the edge rows, the degree weights, the bias rows), the first
  pallas_call, two stretches (the gather of the scaled rows, then the scatter-add into the aggregate), the second
  pallas_call, two more stretches of the same kind, the third pallas_call. The buffer contents at each boundary are a
  fold from the launch memory; a buffer that a segment does not write keeps its contents across it, a host operation's
  result is the operation applied to its operands' contents, and a pallas_call's output array is what its region leaves
  (the three region modules). Reading the result buffer back through the fold gives `KV.out`.

  The module goes through the boundaries in program order. At each it states, for every buffer a later segment reads,
  what the buffer holds as a term of KTerms over the launch contents of the arguments; each statement follows from the
  ones at the boundary before it by one of four steps: a host stretch that does not write the buffer, a region of which
  the buffer is no array, a region that only reads the buffer through an input window, or the segment's own result.
-/
import proofs.«401091_j22041772163615_3_alg».proof.Proof.Gen.KernelIdeal.Frame
import proofs.«401091_j22041772163615_3_alg».proof.Proof.KTerms
import Idealize.ShloMosaic.Lib.StableHlo.Run

set_option maxRecDepth 16384

noncomputable section

namespace Cert.KernelIdeal.Fold

open Idealize.ShloMosaic Idealize.ShloMosaic.TcCoe Idealize.SL.Sem
open Cert.KernelIdeal Cert.KernelIdeal.Gen Cert.GcnSpec
open Idealize.ShloMosaic.Pipeline (Dat)

variable (m : (ℓ : Loc nD τ sig) → Buf (Elt Ideal) ℓ) (ρ : Dev nD → PrngReg)

/-- A stretch of host operations leaves a buffer none of them writes as it was: each operation's written set is a
    singleton, and the buffer is told apart from it as a reference. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the three regions leave, as hypotheses -/

/-- Region 0's first output array holds the product of its first two input arrays. -/
abbrev F03 : Prop :=
  ∀ (V : (c : Dev nD) → (b : Ref sig .tc) → Buf (Elt Ideal) ((c : Thread nD τ).loc b)) (c : Dev nD),
    (dat0 (F := Ideal) V c).arrAt 3 cfg0.N = mm (n := 100000) (k := 12) (d := 128) (V c main_arg0) (V c main_arg2)
/-- Region 0's second output array holds that product with its rows scaled by the weight column. -/
abbrev F04 : Prop :=
  ∀ (V : (c : Dev nD) → (b : Ref sig .tc) → Buf (Elt Ideal) ((c : Thread nD τ).loc b)) (c : Dev nD),
    (dat0 (F := Ideal) V c).arrAt 4 cfg0.N
      = scaleRows (n := 100000) (d := 128) (mm (n := 100000) (k := 12) (d := 128) (V c main_arg0) (V c main_arg2)) (V c main_v11)
/-- Region 1's first output array holds the rectified combination times the second weight matrix. -/
abbrev F15 : Prop :=
  ∀ (V : (c : Dev nD) → (b : Ref sig .tc) → Buf (Elt Ideal) ((c : Thread nD τ).loc b)) (c : Dev nD),
    (dat1 (F := Ideal) V c).arrAt 5 cfg1.N
      = mm (n := 100000) (k := 128) (d := 64)
          (relu (combine (n := 100000) (d := 128) (V c main_v24) (V c main_v14_0) (V c main_v11) (V c main_v12))) (V c main_arg4)
/-- Region 1's second output array holds the same with its rows scaled by the weight column. -/
abbrev F16 : Prop :=
  ∀ (V : (c : Dev nD) → (b : Ref sig .tc) → Buf (Elt Ideal) ((c : Thread nD τ).loc b)) (c : Dev nD),
    (dat1 (F := Ideal) V c).arrAt 6 cfg1.N
      = scaleRows (n := 100000) (d := 64) (mm (n := 100000) (k := 128) (d := 64)
          (relu (combine (n := 100000) (d := 128) (V c main_v24) (V c main_v14_0) (V c main_v11) (V c main_v12))) (V c main_arg4)) (V c main_v11)
/-- Region 2's output array holds the combination of its four input arrays. -/
abbrev F24 : Prop :=
  ∀ (V : (c : Dev nD) → (b : Ref sig .tc) → Buf (Elt Ideal) ((c : Thread nD τ).loc b)) (c : Dev nD),
    (dat2 (F := Ideal) V c).arrAt 4 cfg2.N
      = combine (n := 100000) (d := 64) (V c main_v35) (V c main_v25_0) (V c main_v11) (V c main_v13)

/-! ## The host stretches, over any contents

Each result buffer of a stretch holds the operations' term over the contents the stretch is entered with. -/

section Stretches

variable (V : Valuation τ sig (Elt Ideal))

theorem ops0_v1 : StableHlo.after hostOps0 V (Proc.devRef .tc main_v1) = KV.row (V (Proc.devRef .tc main_arg1)) := by
  after_results_simp <;> rfl
theorem ops0_v3 : StableHlo.after hostOps0 V (Proc.devRef .tc main_v3) = KV.col (V (Proc.devRef .tc main_arg1)) := by
  after_results_simp <;> rfl
theorem ops0_v11 : StableHlo.after hostOps0 V (Proc.devRef .tc main_v11) = KV.dcol (V (Proc.devRef .tc main_arg1)) := by
  after_results_simp <;> rfl
theorem ops0_v12 : StableHlo.after hostOps0 V (Proc.devRef .tc main_v12) = KV.b1row (V (Proc.devRef .tc main_arg3)) := by
  after_results_simp <;> rfl
theorem ops0_v13 : StableHlo.after hostOps0 V (Proc.devRef .tc main_v13) = KV.b2row (V (Proc.devRef .tc main_arg5)) := by
  after_results_simp <;> rfl

/-- The gather of the first layer's scaled rows at the edges' sources. -/
theorem ops1_v15 :
    (StableHlo.after hostOps1 V (Proc.devRef .tc main_v15) : S1600000x128.Idx → EReal)
      = Host.gather gather_S100000x128_S1600000x1_S1600000x128_1_0_n_n_0_1_1128 (V (Proc.devRef .tc main_v14_1))
          (broadcastInDim S1600000x1 ![0] bcast_S1600000_S1600000x1_0 (V (Proc.devRef .tc main_v1))) := by
  after_results_simp <;> rfl

/-- The scatter-add of the gathered rows, widened, at the edges' normalised targets, from zero. -/
theorem ops1_1_v24 :
    (StableHlo.after hostOps1_1 V (Proc.devRef .tc main_v24) : S100000x128.Idx → EReal)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0
            (select (cmpi .slt (V (Proc.devRef .tc main_v3)) (broadcastInDim S1600000 ![] bcast_S_S1600000 (constantI S_ 32 0#32)))
              (addi (V (Proc.devRef .tc main_v3)) (broadcastInDim S1600000 ![] bcast_S_S1600000 (constantI S_ 32 100000#32)))
              (V (Proc.devRef .tc main_v3))))
          (extf .f32 (V (Proc.devRef .tc main_v15)) bitsLt_bf16_f32) := by
  after_results_simp <;> rfl

/-- The gather of the second layer's scaled rows at the edges' sources. -/
theorem ops2_v26 :
    (StableHlo.after hostOps2 V (Proc.devRef .tc main_v26) : S1600000x64.Idx → EReal)
      = Host.gather gather_S100000x64_S1600000x1_S1600000x64_1_0_n_n_0_1_164 (V (Proc.devRef .tc main_v25_1))
          (broadcastInDim S1600000x1 ![0] bcast_S1600000_S1600000x1_0 (V (Proc.devRef .tc main_v1))) := by
  after_results_simp <;> rfl

/-- The scatter-add of those, widened, at the edges' normalised targets, from zero. -/
theorem ops2_1_v35 :
    (StableHlo.after hostOps2_1 V (Proc.devRef .tc main_v35) : S100000x64.Idx → EReal)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0
            (select (cmpi .slt (V (Proc.devRef .tc main_v3)) (broadcastInDim S1600000 ![] bcast_S_S1600000 (constantI S_ 32 0#32)))
              (addi (V (Proc.devRef .tc main_v3)) (broadcastInDim S1600000 ![] bcast_S_S1600000 (constantI S_ 32 100000#32)))
              (V (Proc.devRef .tc main_v3))))
          (extf .f32 (V (Proc.devRef .tc main_v26)) bitsLt_bf16_f32) := by
  after_results_simp <;> rfl

end Stretches

/-! ## After the first stretch (the first region's entry)

The stretch writes the edge rows, the weight column and the two bias rows; it writes no argument. -/

theorem W1_arg0 (c : Dev nD) : W1 (F := Ideal) m ρ c (Proc.devRef .tc main_arg0) = (m ((c : Thread nD τ).loc main_arg0)) := by
  show StableHlo.after hostOps0 (W0 m ρ c) (Proc.devRef .tc main_arg0) = _
  not_written hostOps0
theorem W1_arg2 (c : Dev nD) : W1 (F := Ideal) m ρ c (Proc.devRef .tc main_arg2) = (m ((c : Thread nD τ).loc main_arg2)) := by
  show StableHlo.after hostOps0 (W0 m ρ c) (Proc.devRef .tc main_arg2) = _
  not_written hostOps0
theorem W1_arg4 (c : Dev nD) : W1 (F := Ideal) m ρ c (Proc.devRef .tc main_arg4) = (m ((c : Thread nD τ).loc main_arg4)) := by
  show StableHlo.after hostOps0 (W0 m ρ c) (Proc.devRef .tc main_arg4) = _
  not_written hostOps0
theorem W1_v1 (c : Dev nD) : W1 (F := Ideal) m ρ c (Proc.devRef .tc main_v1) = KV.row (m ((c : Thread nD τ).loc main_arg1)) := ops0_v1 (W0 m ρ c)
theorem W1_v3 (c : Dev nD) : W1 (F := Ideal) m ρ c (Proc.devRef .tc main_v3) = KV.col (m ((c : Thread nD τ).loc main_arg1)) := ops0_v3 (W0 m ρ c)
theorem W1_v11 (c : Dev nD) : W1 (F := Ideal) m ρ c (Proc.devRef .tc main_v11) = KV.dcol (m ((c : Thread nD τ).loc main_arg1)) := ops0_v11 (W0 m ρ c)
theorem W1_v12 (c : Dev nD) : W1 (F := Ideal) m ρ c (Proc.devRef .tc main_v12) = KV.b1row (m ((c : Thread nD τ).loc main_arg3)) := ops0_v12 (W0 m ρ c)
theorem W1_v13 (c : Dev nD) : W1 (F := Ideal) m ρ c (Proc.devRef .tc main_v13) = KV.b2row (m ((c : Thread nD τ).loc main_arg5)) := ops0_v13 (W0 m ρ c)

/-! ## At the first region's exit

Its two output arrays hold what the region leaves, read at the entry contents; its input arrays and every other
buffer are as entered. -/

theorem W2_v14_0 (f03 : F03) (c : Dev nD) : W2 (F := Ideal) m ρ c (Proc.devRef .tc main_v14_0) = KV.h1 (m ((c : Thread nD τ).loc main_arg0)) (m ((c : Thread nD τ).loc main_arg2)) := by
  refine (W2_arr (F := Ideal) m ρ c 3).trans ((f03 (V1 m ρ) c).trans ?_)
  show mm (n := 100000) (k := 12) (d := 128) (W1 (F := Ideal) m ρ c (Proc.devRef .tc main_arg0)) (W1 (F := Ideal) m ρ c (Proc.devRef .tc main_arg2)) = _
  rw [W1_arg0, W1_arg2]; rfl
theorem W2_v14_1 (f04 : F04) (c : Dev nD) : W2 (F := Ideal) m ρ c (Proc.devRef .tc main_v14_1) = KV.hp1 (m ((c : Thread nD τ).loc main_arg0)) (m ((c : Thread nD τ).loc main_arg1)) (m ((c : Thread nD τ).loc main_arg2)) := by
  refine (W2_arr (F := Ideal) m ρ c 4).trans ((f04 (V1 m ρ) c).trans ?_)
  show scaleRows (n := 100000) (d := 128) (mm (n := 100000) (k := 12) (d := 128) (W1 (F := Ideal) m ρ c (Proc.devRef .tc main_arg0)) (W1 (F := Ideal) m ρ c (Proc.devRef .tc main_arg2)))
    (W1 (F := Ideal) m ρ c (Proc.devRef .tc main_v11)) = _
  rw [W1_arg0, W1_arg2, W1_v11]; rfl
theorem W2_v11 (c : Dev nD) : W2 (F := Ideal) m ρ c (Proc.devRef .tc main_v11) = KV.dcol (m ((c : Thread nD τ).loc main_arg1)) :=
  ((W2_arr (F := Ideal) m ρ c 2).trans (((dat0 (V1 m ρ) c).arrAt_in 2 rfl _).trans (A_eq0 (V1 m ρ) c 2))).trans (W1_v11 m ρ c)
theorem W2_v1 (c : Dev nD) : W2 (F := Ideal) m ρ c (Proc.devRef .tc main_v1) = KV.row (m ((c : Thread nD τ).loc main_arg1)) :=
  (W2_of_ne (F := Ideal) m ρ c main_v1 (by decide)).trans (W1_v1 m ρ c)
theorem W2_v3 (c : Dev nD) : W2 (F := Ideal) m ρ c (Proc.devRef .tc main_v3) = KV.col (m ((c : Thread nD τ).loc main_arg1)) :=
  (W2_of_ne (F := Ideal) m ρ c main_v3 (by decide)).trans (W1_v3 m ρ c)
theorem W2_v12 (c : Dev nD) : W2 (F := Ideal) m ρ c (Proc.devRef .tc main_v12) = KV.b1row (m ((c : Thread nD τ).loc main_arg3)) :=
  (W2_of_ne (F := Ideal) m ρ c main_v12 (by decide)).trans (W1_v12 m ρ c)
theorem W2_v13 (c : Dev nD) : W2 (F := Ideal) m ρ c (Proc.devRef .tc main_v13) = KV.b2row (m ((c : Thread nD τ).loc main_arg5)) :=
  (W2_of_ne (F := Ideal) m ρ c main_v13 (by decide)).trans (W1_v13 m ρ c)
theorem W2_arg4 (c : Dev nD) : W2 (F := Ideal) m ρ c (Proc.devRef .tc main_arg4) = (m ((c : Thread nD τ).loc main_arg4)) :=
  (W2_of_ne (F := Ideal) m ρ c main_arg4 (by decide)).trans (W1_arg4 m ρ c)

/-! ## After the gather of the first layer's scaled rows -/

theorem W3_v15 (f04 : F04) (c : Dev nD) :
    W3 (F := Ideal) m ρ c (Proc.devRef .tc main_v15)
      = Host.gather gather_S100000x128_S1600000x1_S1600000x128_1_0_n_n_0_1_1128 (KV.hp1 (m ((c : Thread nD τ).loc main_arg0)) (m ((c : Thread nD τ).loc main_arg1)) (m ((c : Thread nD τ).loc main_arg2)))
          (broadcastInDim S1600000x1 ![0] bcast_S1600000_S1600000x1_0 (KV.row (m ((c : Thread nD τ).loc main_arg1)))) := by
  refine (ops1_v15 (W2 m ρ c)).trans ?_
  rw [W2_v14_1 m ρ f04, W2_v1]
theorem W3_v1 (c : Dev nD) : W3 (F := Ideal) m ρ c (Proc.devRef .tc main_v1) = KV.row (m ((c : Thread nD τ).loc main_arg1)) :=
  (by not_written hostOps1 : W3 (F := Ideal) m ρ c (Proc.devRef .tc main_v1) = W2 (F := Ideal) m ρ c (Proc.devRef .tc main_v1)).trans (W2_v1 m ρ c)
theorem W3_v3 (c : Dev nD) : W3 (F := Ideal) m ρ c (Proc.devRef .tc main_v3) = KV.col (m ((c : Thread nD τ).loc main_arg1)) :=
  (by not_written hostOps1 : W3 (F := Ideal) m ρ c (Proc.devRef .tc main_v3) = W2 (F := Ideal) m ρ c (Proc.devRef .tc main_v3)).trans (W2_v3 m ρ c)
theorem W3_v14_0 (f03 : F03) (c : Dev nD) : W3 (F := Ideal) m ρ c (Proc.devRef .tc main_v14_0) = KV.h1 (m ((c : Thread nD τ).loc main_arg0)) (m ((c : Thread nD τ).loc main_arg2)) :=
  (by not_written hostOps1 : W3 (F := Ideal) m ρ c (Proc.devRef .tc main_v14_0) = W2 (F := Ideal) m ρ c (Proc.devRef .tc main_v14_0)).trans (W2_v14_0 m ρ f03 c)
theorem W3_v11 (c : Dev nD) : W3 (F := Ideal) m ρ c (Proc.devRef .tc main_v11) = KV.dcol (m ((c : Thread nD τ).loc main_arg1)) :=
  (by not_written hostOps1 : W3 (F := Ideal) m ρ c (Proc.devRef .tc main_v11) = W2 (F := Ideal) m ρ c (Proc.devRef .tc main_v11)).trans (W2_v11 m ρ c)
theorem W3_v12 (c : Dev nD) : W3 (F := Ideal) m ρ c (Proc.devRef .tc main_v12) = KV.b1row (m ((c : Thread nD τ).loc main_arg3)) :=
  (by not_written hostOps1 : W3 (F := Ideal) m ρ c (Proc.devRef .tc main_v12) = W2 (F := Ideal) m ρ c (Proc.devRef .tc main_v12)).trans (W2_v12 m ρ c)
theorem W3_v13 (c : Dev nD) : W3 (F := Ideal) m ρ c (Proc.devRef .tc main_v13) = KV.b2row (m ((c : Thread nD τ).loc main_arg5)) :=
  (by not_written hostOps1 : W3 (F := Ideal) m ρ c (Proc.devRef .tc main_v13) = W2 (F := Ideal) m ρ c (Proc.devRef .tc main_v13)).trans (W2_v13 m ρ c)
theorem W3_arg4 (c : Dev nD) : W3 (F := Ideal) m ρ c (Proc.devRef .tc main_arg4) = (m ((c : Thread nD τ).loc main_arg4)) :=
  (by not_written hostOps1 : W3 (F := Ideal) m ρ c (Proc.devRef .tc main_arg4) = W2 (F := Ideal) m ρ c (Proc.devRef .tc main_arg4)).trans (W2_arg4 m ρ c)

/-! ## After the scatter-add into the first aggregate (the second region's entry) -/

theorem W4_v24 (f04 : F04) (c : Dev nD) : W4 (F := Ideal) m ρ c (Proc.devRef .tc main_v24) = KV.agg1 (m ((c : Thread nD τ).loc main_arg0)) (m ((c : Thread nD τ).loc main_arg1)) (m ((c : Thread nD τ).loc main_arg2)) := by
  refine (ops1_1_v24 (W3 m ρ c)).trans ?_
  rw [W3_v15 m ρ f04, W3_v3]; rfl
theorem W4_v1 (c : Dev nD) : W4 (F := Ideal) m ρ c (Proc.devRef .tc main_v1) = KV.row (m ((c : Thread nD τ).loc main_arg1)) :=
  (by not_written hostOps1_1 : W4 (F := Ideal) m ρ c (Proc.devRef .tc main_v1) = W3 (F := Ideal) m ρ c (Proc.devRef .tc main_v1)).trans (W3_v1 m ρ c)
theorem W4_v3 (c : Dev nD) : W4 (F := Ideal) m ρ c (Proc.devRef .tc main_v3) = KV.col (m ((c : Thread nD τ).loc main_arg1)) :=
  (by not_written hostOps1_1 : W4 (F := Ideal) m ρ c (Proc.devRef .tc main_v3) = W3 (F := Ideal) m ρ c (Proc.devRef .tc main_v3)).trans (W3_v3 m ρ c)
theorem W4_v14_0 (f03 : F03) (c : Dev nD) : W4 (F := Ideal) m ρ c (Proc.devRef .tc main_v14_0) = KV.h1 (m ((c : Thread nD τ).loc main_arg0)) (m ((c : Thread nD τ).loc main_arg2)) :=
  (by not_written hostOps1_1 : W4 (F := Ideal) m ρ c (Proc.devRef .tc main_v14_0) = W3 (F := Ideal) m ρ c (Proc.devRef .tc main_v14_0)).trans (W3_v14_0 m ρ f03 c)
theorem W4_v11 (c : Dev nD) : W4 (F := Ideal) m ρ c (Proc.devRef .tc main_v11) = KV.dcol (m ((c : Thread nD τ).loc main_arg1)) :=
  (by not_written hostOps1_1 : W4 (F := Ideal) m ρ c (Proc.devRef .tc main_v11) = W3 (F := Ideal) m ρ c (Proc.devRef .tc main_v11)).trans (W3_v11 m ρ c)
theorem W4_v12 (c : Dev nD) : W4 (F := Ideal) m ρ c (Proc.devRef .tc main_v12) = KV.b1row (m ((c : Thread nD τ).loc main_arg3)) :=
  (by not_written hostOps1_1 : W4 (F := Ideal) m ρ c (Proc.devRef .tc main_v12) = W3 (F := Ideal) m ρ c (Proc.devRef .tc main_v12)).trans (W3_v12 m ρ c)
theorem W4_v13 (c : Dev nD) : W4 (F := Ideal) m ρ c (Proc.devRef .tc main_v13) = KV.b2row (m ((c : Thread nD τ).loc main_arg5)) :=
  (by not_written hostOps1_1 : W4 (F := Ideal) m ρ c (Proc.devRef .tc main_v13) = W3 (F := Ideal) m ρ c (Proc.devRef .tc main_v13)).trans (W3_v13 m ρ c)
theorem W4_arg4 (c : Dev nD) : W4 (F := Ideal) m ρ c (Proc.devRef .tc main_arg4) = (m ((c : Thread nD τ).loc main_arg4)) :=
  (by not_written hostOps1_1 : W4 (F := Ideal) m ρ c (Proc.devRef .tc main_arg4) = W3 (F := Ideal) m ρ c (Proc.devRef .tc main_arg4)).trans (W3_arg4 m ρ c)

/-! ## At the second region's exit -/

theorem W5_v25_0 (f03 : F03) (f04 : F04) (f15 : F15) (c : Dev nD) : W5 (F := Ideal) m ρ c (Proc.devRef .tc main_v25_0) = KV.h2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr (F := Ideal) m ρ c 5).trans ((f15 (V4 m ρ) c).trans ?_)
  show mm (n := 100000) (k := 128) (d := 64)
    (relu (combine (n := 100000) (d := 128) (W4 (F := Ideal) m ρ c (Proc.devRef .tc main_v24)) (W4 (F := Ideal) m ρ c (Proc.devRef .tc main_v14_0)) (W4 (F := Ideal) m ρ c (Proc.devRef .tc main_v11)) (W4 (F := Ideal) m ρ c (Proc.devRef .tc main_v12)))) (W4 (F := Ideal) m ρ c (Proc.devRef .tc main_arg4)) = _
  rw [W4_v24 m ρ f04, W4_v14_0 m ρ f03, W4_v11, W4_v12, W4_arg4]; rfl
theorem W5_v25_1 (f03 : F03) (f04 : F04) (f16 : F16) (c : Dev nD) : W5 (F := Ideal) m ρ c (Proc.devRef .tc main_v25_1) = KV.hp2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr (F := Ideal) m ρ c 6).trans ((f16 (V4 m ρ) c).trans ?_)
  show scaleRows (n := 100000) (d := 64) (mm (n := 100000) (k := 128) (d := 64)
    (relu (combine (n := 100000) (d := 128) (W4 (F := Ideal) m ρ c (Proc.devRef .tc main_v24)) (W4 (F := Ideal) m ρ c (Proc.devRef .tc main_v14_0)) (W4 (F := Ideal) m ρ c (Proc.devRef .tc main_v11)) (W4 (F := Ideal) m ρ c (Proc.devRef .tc main_v12)))) (W4 (F := Ideal) m ρ c (Proc.devRef .tc main_arg4))) (W4 (F := Ideal) m ρ c (Proc.devRef .tc main_v11)) = _
  rw [W4_v24 m ρ f04, W4_v14_0 m ρ f03, W4_v11, W4_v12, W4_arg4]; rfl
theorem W5_v11 (c : Dev nD) : W5 (F := Ideal) m ρ c (Proc.devRef .tc main_v11) = KV.dcol (m ((c : Thread nD τ).loc main_arg1)) :=
  ((W5_arr (F := Ideal) m ρ c 2).trans (((dat1 (V4 m ρ) c).arrAt_in 2 rfl _).trans (A_eq1 (V4 m ρ) c 2))).trans (W4_v11 m ρ c)
theorem W5_v1 (c : Dev nD) : W5 (F := Ideal) m ρ c (Proc.devRef .tc main_v1) = KV.row (m ((c : Thread nD τ).loc main_arg1)) :=
  (W5_of_ne (F := Ideal) m ρ c main_v1 (by decide)).trans (W4_v1 m ρ c)
theorem W5_v3 (c : Dev nD) : W5 (F := Ideal) m ρ c (Proc.devRef .tc main_v3) = KV.col (m ((c : Thread nD τ).loc main_arg1)) :=
  (W5_of_ne (F := Ideal) m ρ c main_v3 (by decide)).trans (W4_v3 m ρ c)
theorem W5_v13 (c : Dev nD) : W5 (F := Ideal) m ρ c (Proc.devRef .tc main_v13) = KV.b2row (m ((c : Thread nD τ).loc main_arg5)) :=
  (W5_of_ne (F := Ideal) m ρ c main_v13 (by decide)).trans (W4_v13 m ρ c)

/-! ## After the gather of the second layer's scaled rows -/

theorem W6_v26 (f03 : F03) (f04 : F04) (f16 : F16) (c : Dev nD) :
    W6 (F := Ideal) m ρ c (Proc.devRef .tc main_v26)
      = Host.gather gather_S100000x64_S1600000x1_S1600000x64_1_0_n_n_0_1_164 (KV.hp2 (m ((c : Thread nD τ).loc main_arg0)) (m ((c : Thread nD τ).loc main_arg1)) (m ((c : Thread nD τ).loc main_arg2)) (m ((c : Thread nD τ).loc main_arg3)) (m ((c : Thread nD τ).loc main_arg4)))
          (broadcastInDim S1600000x1 ![0] bcast_S1600000_S1600000x1_0 (KV.row (m ((c : Thread nD τ).loc main_arg1)))) := by
  refine (ops2_v26 (W5 m ρ c)).trans ?_
  rw [W5_v25_1 m ρ f03 f04 f16, W5_v1]
theorem W6_v3 (c : Dev nD) : W6 (F := Ideal) m ρ c (Proc.devRef .tc main_v3) = KV.col (m ((c : Thread nD τ).loc main_arg1)) :=
  (by not_written hostOps2 : W6 (F := Ideal) m ρ c (Proc.devRef .tc main_v3) = W5 (F := Ideal) m ρ c (Proc.devRef .tc main_v3)).trans (W5_v3 m ρ c)
theorem W6_v25_0 (f03 : F03) (f04 : F04) (f15 : F15) (c : Dev nD) : W6 (F := Ideal) m ρ c (Proc.devRef .tc main_v25_0) = KV.h2 (m ((c : Thread nD τ).loc main_arg0)) (m ((c : Thread nD τ).loc main_arg1)) (m ((c : Thread nD τ).loc main_arg2)) (m ((c : Thread nD τ).loc main_arg3)) (m ((c : Thread nD τ).loc main_arg4)) :=
  (by not_written hostOps2 : W6 (F := Ideal) m ρ c (Proc.devRef .tc main_v25_0) = W5 (F := Ideal) m ρ c (Proc.devRef .tc main_v25_0)).trans (W5_v25_0 m ρ f03 f04 f15 c)
theorem W6_v11 (c : Dev nD) : W6 (F := Ideal) m ρ c (Proc.devRef .tc main_v11) = KV.dcol (m ((c : Thread nD τ).loc main_arg1)) :=
  (by not_written hostOps2 : W6 (F := Ideal) m ρ c (Proc.devRef .tc main_v11) = W5 (F := Ideal) m ρ c (Proc.devRef .tc main_v11)).trans (W5_v11 m ρ c)
theorem W6_v13 (c : Dev nD) : W6 (F := Ideal) m ρ c (Proc.devRef .tc main_v13) = KV.b2row (m ((c : Thread nD τ).loc main_arg5)) :=
  (by not_written hostOps2 : W6 (F := Ideal) m ρ c (Proc.devRef .tc main_v13) = W5 (F := Ideal) m ρ c (Proc.devRef .tc main_v13)).trans (W5_v13 m ρ c)

/-! ## After the scatter-add into the second aggregate (the third region's entry) -/

theorem W7_v35 (f03 : F03) (f04 : F04) (f16 : F16) (c : Dev nD) : W7 (F := Ideal) m ρ c (Proc.devRef .tc main_v35) = KV.agg2 (m ((c : Thread nD τ).loc main_arg0)) (m ((c : Thread nD τ).loc main_arg1)) (m ((c : Thread nD τ).loc main_arg2)) (m ((c : Thread nD τ).loc main_arg3)) (m ((c : Thread nD τ).loc main_arg4)) := by
  refine (ops2_1_v35 (W6 m ρ c)).trans ?_
  rw [W6_v26 m ρ f03 f04 f16, W6_v3]; rfl
theorem W7_v25_0 (f03 : F03) (f04 : F04) (f15 : F15) (c : Dev nD) : W7 (F := Ideal) m ρ c (Proc.devRef .tc main_v25_0) = KV.h2 (m ((c : Thread nD τ).loc main_arg0)) (m ((c : Thread nD τ).loc main_arg1)) (m ((c : Thread nD τ).loc main_arg2)) (m ((c : Thread nD τ).loc main_arg3)) (m ((c : Thread nD τ).loc main_arg4)) :=
  (by not_written hostOps2_1 : W7 (F := Ideal) m ρ c (Proc.devRef .tc main_v25_0) = W6 (F := Ideal) m ρ c (Proc.devRef .tc main_v25_0)).trans (W6_v25_0 m ρ f03 f04 f15 c)
theorem W7_v11 (c : Dev nD) : W7 (F := Ideal) m ρ c (Proc.devRef .tc main_v11) = KV.dcol (m ((c : Thread nD τ).loc main_arg1)) :=
  (by not_written hostOps2_1 : W7 (F := Ideal) m ρ c (Proc.devRef .tc main_v11) = W6 (F := Ideal) m ρ c (Proc.devRef .tc main_v11)).trans (W6_v11 m ρ c)
theorem W7_v13 (c : Dev nD) : W7 (F := Ideal) m ρ c (Proc.devRef .tc main_v13) = KV.b2row (m ((c : Thread nD τ).loc main_arg5)) :=
  (by not_written hostOps2_1 : W7 (F := Ideal) m ρ c (Proc.devRef .tc main_v13) = W6 (F := Ideal) m ρ c (Proc.devRef .tc main_v13)).trans (W6_v13 m ρ c)

/-! ## The result buffer -/

/-- The result buffer at the last boundary is `KV.out` of the launch contents of the six arguments, given what each
    region leaves in its output arrays as a function of the contents it is entered with (the five hypotheses: the three
    region modules prove them). -/
theorem W8_out
    (f03 : ∀ (V : (c : Dev nD) → (b : Ref sig .tc) → Buf (Elt Ideal) ((c : Thread nD τ).loc b)) (c : Dev nD),
      (dat0 (F := Ideal) V c).arrAt 3 cfg0.N = mm (n := 100000) (k := 12) (d := 128) (V c main_arg0) (V c main_arg2))
    (f04 : ∀ (V : (c : Dev nD) → (b : Ref sig .tc) → Buf (Elt Ideal) ((c : Thread nD τ).loc b)) (c : Dev nD),
      (dat0 (F := Ideal) V c).arrAt 4 cfg0.N
        = scaleRows (n := 100000) (d := 128) (mm (n := 100000) (k := 12) (d := 128) (V c main_arg0) (V c main_arg2)) (V c main_v11))
    (f15 : ∀ (V : (c : Dev nD) → (b : Ref sig .tc) → Buf (Elt Ideal) ((c : Thread nD τ).loc b)) (c : Dev nD),
      (dat1 (F := Ideal) V c).arrAt 5 cfg1.N
        = mm (n := 100000) (k := 128) (d := 64)
            (relu (combine (n := 100000) (d := 128) (V c main_v24) (V c main_v14_0) (V c main_v11) (V c main_v12))) (V c main_arg4))
    (f16 : ∀ (V : (c : Dev nD) → (b : Ref sig .tc) → Buf (Elt Ideal) ((c : Thread nD τ).loc b)) (c : Dev nD),
      (dat1 (F := Ideal) V c).arrAt 6 cfg1.N
        = scaleRows (n := 100000) (d := 64) (mm (n := 100000) (k := 128) (d := 64)
            (relu (combine (n := 100000) (d := 128) (V c main_v24) (V c main_v14_0) (V c main_v11) (V c main_v12))) (V c main_arg4)) (V c main_v11))
    (f24 : ∀ (V : (c : Dev nD) → (b : Ref sig .tc) → Buf (Elt Ideal) ((c : Thread nD τ).loc b)) (c : Dev nD),
      (dat2 (F := Ideal) V c).arrAt 4 cfg2.N
        = combine (n := 100000) (d := 64) (V c main_v35) (V c main_v25_0) (V c main_v11) (V c main_v13))
    (c : Dev nD) :
    W8 (F := Ideal) m ρ c (Proc.devRef .tc main_v36)
      = KV.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W8_arr (F := Ideal) m ρ c 4).trans ((f24 (V7 m ρ) c).trans ?_)
  show combine (n := 100000) (d := 64) (W7 (F := Ideal) m ρ c (Proc.devRef .tc main_v35)) (W7 (F := Ideal) m ρ c (Proc.devRef .tc main_v25_0)) (W7 (F := Ideal) m ρ c (Proc.devRef .tc main_v11)) (W7 (F := Ideal) m ρ c (Proc.devRef .tc main_v13)) = _
  rw [W7_v35 m ρ f03 f04 f16, W7_v25_0 m ρ f03 f04 f15, W7_v11, W7_v13]; rfl

end Cert.KernelIdeal.Fold

end
-- ==== Proof.LibGatherRows.lean ====
/-
  A gather of ROWS read at an index, for any extents and any element type.

  What `x[idx]` / `jnp.take(x, idx, axis=0)` of an `[n, d]` operand at an `[e]` vector of row numbers lowers to: a gather
  with the start indices as a column `[e, 1]`, `offset_dims = [1]`, `collapsed_slice_dims = [0]`,
  `start_index_map = [0]`, `index_vector_dim = 1`, `slice_sizes = [1, d]`. Element `(p, q)` of the result is the operand
  at row `idx[p]` — the index word read signed and clamped into `[0, n − 1]`, as StableHLO clamps every start index —
  and column `q`. The rank-1 form (operand `[n]`, `offset_dims = []`, `slice_sizes = [1]`, result `[e]`) is the same
  statement without the column coordinate.
-/
import Idealize.ShloMosaic.Lib.ValueIdx

noncomputable section

namespace Idealize.ShloMosaic.GatherRows

open Idealize.ShloMosaic Idealize.ShloMosaic.ValueIdx

variable {α : Type}

/-- The dimension numbers of a row gather: operand `[n, d]`, start indices `[e, 1]`, result `[e, d]`. -/
abbrev rowsDims (n e d : Nat) (wf : GatherDims.WF ⟨2, ![n, d]⟩ ⟨2, ![e, 1]⟩ ⟨2, ![e, d]⟩ [1] [0] [] [0] [] 1 ![1, d]) :
    GatherDims ⟨2, ![n, d]⟩ ⟨2, ![e, 1]⟩ ⟨2, ![e, d]⟩ where
  offsetDims := [1]
  collapsedSliceDims := [0]
  operandBatchingDims := []
  startIndicesBatchingDims := []
  startIndexMap := [0]
  indexVectorDim := 1
  sliceSizes := ![1, d]
  wf := wf

/-- The dimension numbers of a vector gather: operand `[n]`, start indices `[e, 1]`, result `[e]`. -/
abbrev vecDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE ROW GATHER READ AT `(p, q)`: the operand at the row the index word names (signed, clamped) and column `q`. -/
theorem gather_rows_apply {n e d w : Nat} (hn : 0 < n)
    (wf : GatherDims.WF ⟨2, ![n, d]⟩ ⟨2, ![e, 1]⟩ ⟨2, ![e, d]⟩ [1] [0] [] [0] [] 1 ![1, d])
    (x : (⟨2, ![n, d]⟩ : Shape).Idx → α) (idx : IVec ⟨2, ![e, 1]⟩ w) (p : Fin e) (q : Fin d) :
    Host.gather (rowsDims n e d wf) x idx (ix2 p q)
      = x (ix2 (⟨min (idx (ix2 p (0 : Fin 1))).toInt.toNat (n - 1), by omega⟩ : Fin n) q) := by
  -- operand axis 0 is collapsed (no offset coordinate) and in the start index map: the clamped index word
  have h0 : (rowsDims n e d wf).start (ix2 p q) idx (0 : Fin 2) + (rowsDims n e d wf).batchCoord (ix2 p q) (0 : Fin 2)
      + (rowsDims n e d wf).offCoord (ix2 p q) (0 : Fin 2) = min (idx (ix2 p (0 : Fin 1))).toInt.toNat (n - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n e d wf).startIndexMap from List.mem_singleton.mpr rfl)]
    -- the word is read at start-indices index (p, 0)
    have hsi : (rowsDims n e d wf).siIdx (ix2 p q) ⟨List.idxOf (0 : Fin 2) (rowsDims n e d wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  -- operand axis 1 is not in the start index map (start 0) and is the one kept axis: its offset coordinate is q
  have h1 : (rowsDims n e d wf).start (ix2 p q) idx (1 : Fin 2) + (rowsDims n e d wf).batchCoord (ix2 p q) (1 : Fin 2)
      + (rowsDims n e d wf).offCoord (ix2 p q) (1 : Fin 2) = q.val := by
    have hne : ¬ (1 : Fin 2) ∈ ([0] : List (Fin 2)) := by decide
    rw [GatherDims.batchCoord_eq_zero _ _ _ List.not_mem_nil]
    unfold GatherDims.start
    rw [dif_neg (show ¬ (1 : Fin 2) ∈ (rowsDims n e d wf).startIndexMap from hne)]
    simp only [Nat.zero_add, Nat.add_zero]
    unfold GatherDims.offCoord
    rw [dif_pos ((GatherDims.mem_sKept _ _).mpr ⟨hne, List.not_mem_nil⟩)]
    rfl
  unfold Host.gather
  congr 1
  funext a
  refine Fin.ext ?_
  match a with
  | ⟨0, _⟩ => exact h0
  | ⟨1, _⟩ => exact h1

/-- THE VECTOR GATHER READ AT `p`: the operand at the entry the index word names (signed, clamped). -/
theorem gather_vec_apply {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (p : Fin e) :
    Host.gather (vecDims n e wf) x idx (ix1 p)
      = x (ix1 (⟨min (idx (ix2 p (0 : Fin 1))).toInt.toNat (n - 1), by omega⟩ : Fin n)) := by
  unfold Host.gather
  congr 1
  funext a
  obtain rfl : a = 0 := Subsingleton.elim _ _
  refine Fin.ext ?_
  show (vecDims n e wf).start (ix1 p) idx 0 + (vecDims n e wf).batchCoord (ix1 p) 0
      + (vecDims n e wf).offCoord (ix1 p) 0 = _
  -- no batching axes; operand axis 0 is collapsed, so it carries no offset coordinate
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- axis 0 is in the start index map: the start is the clamped index word
  unfold GatherDims.start
  rw [dif_pos (show (0 : Fin 1) ∈ (vecDims n e wf).startIndexMap from List.mem_singleton.mpr rfl)]
  -- the word is read at start-indices index (p, 0)
  have hsi : (vecDims n e wf).siIdx (ix1 p) ⟨List.idxOf (0 : Fin 1) (vecDims n e wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- Inside the range 0 ≤ k < n the clamp is the identity: the row gather reads the row the index word names. -/
theorem gather_rows_apply_of_range {n e d w : Nat} (hn : 0 < n)
    (wf : GatherDims.WF ⟨2, ![n, d]⟩ ⟨2, ![e, 1]⟩ ⟨2, ![e, d]⟩ [1] [0] [] [0] [] 1 ![1, d])
    (x : (⟨2, ![n, d]⟩ : Shape).Idx → α) (idx : IVec ⟨2, ![e, 1]⟩ w) (p : Fin e) (q : Fin d)
    (h0 : 0 ≤ (idx (ix2 p (0 : Fin 1))).toInt) (hn' : (idx (ix2 p (0 : Fin 1))).toInt < (n : Int)) :
    Host.gather (rowsDims n e d wf) x idx (ix2 p q)
      = x (ix2 (⟨(idx (ix2 p (0 : Fin 1))).toInt.toNat, by omega⟩ : Fin n) q) := by
  rw [gather_rows_apply hn wf x idx p q]
  -- for an integer k with 0 ≤ k < n, min k.toNat (n − 1) = k.toNat
  have hk : (⟨min (idx (ix2 p (0 : Fin 1))).toInt.toNat (n - 1), by omega⟩ : Fin n)
      = ⟨(idx (ix2 p (0 : Fin 1))).toInt.toNat, by omega⟩ := Fin.ext (by
    show min (idx (ix2 p (0 : Fin 1))).toInt.toNat (n - 1) = (idx (ix2 p (0 : Fin 1))).toInt.toNat
    omega)
  rw [hk]

/-- Inside the range 0 ≤ k < n the clamp is the identity: the vector gather reads the entry the index word names. -/
theorem gather_vec_apply_of_range {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (p : Fin e)
    (h0 : 0 ≤ (idx (ix2 p (0 : Fin 1))).toInt) (hn' : (idx (ix2 p (0 : Fin 1))).toInt < (n : Int)) :
    Host.gather (vecDims n e wf) x idx (ix1 p)
      = x (ix1 (⟨(idx (ix2 p (0 : Fin 1))).toInt.toNat, by omega⟩ : Fin n)) := by
  rw [gather_vec_apply hn wf x idx p]
  -- for an integer k with 0 ≤ k < n, min k.toNat (n − 1) = k.toNat
  have hk : (⟨min (idx (ix2 p (0 : Fin 1))).toInt.toNat (n - 1), by omega⟩ : Fin n)
      = ⟨(idx (ix2 p (0 : Fin 1))).toInt.toNat, by omega⟩ := Fin.ext (by
    show min (idx (ix2 p (0 : Fin 1))).toInt.toNat (n - 1) = (idx (ix2 p (0 : Fin 1))).toInt.toNat
    omega)
  rw [hk]

end Idealize.ShloMosaic.GatherRows

end
-- ==== Proof.LibScatterRows.lean ====
/-
  A float scatter-add of ROWS read at an index, at the extended reals, for any extents.

  What `zeros.at[idx].add(upd)` of an `[n, d]` operand at an `[e]` vector of row numbers lowers to: a scatter with the
  scatter indices as a column `[e, 1]`, `update_window_dims = [1]`, `inserted_window_dims = [0]`,
  `scatter_dims_to_operand_dims = [0]`, `index_vector_dim = 1`. Element `(i, j)` of the result is the operand's
  element plus the sum, over the update rows `p` whose index word (read signed, not clamped) is `i`, of `upd (p, j)`;
  a row whose index is outside `[0, n)` lands nowhere. The rank-1 form (`segment_sum` of a vector: operand `[n]`,
  updates `[e]`, no window axis) is the same statement without the column coordinate.

  The road: for these dimension numbers the window start of update index `(p, q)` is the index word at `(p, 0)` on
  axis 0 and `0` on axis 1, and the window coordinate is `0` on axis 0 and `q` on axis 1; so update `(p, q)` lands at
  `(i, j)` exactly when that word is `i` and `q = j`. The sum over the updates landing at `(i, j)` then splits by
  coordinates into a sum over `p` of a sum over `q`, and the inner sum has the one term `q = j`.
-/
import Idealize.ShloMosaic.Lib.ValueIdx

noncomputable section

open scoped BigOperators

namespace Idealize.ShloMosaic.ScatterRows

open Idealize.ShloMosaic Idealize.ShloMosaic.ValueIdx

/-- The dimension numbers of a row scatter: operand `[n, d]`, scatter indices `[e, 1]`, updates `[e, d]`. -/
abbrev rowsDims (n e d : Nat) (wf : ScatterDims.WF ⟨2, ![n, d]⟩ ⟨2, ![e, 1]⟩ ⟨2, ![e, d]⟩ [1] [0] [0] 1) :
    ScatterDims ⟨2, ![n, d]⟩ ⟨2, ![e, 1]⟩ ⟨2, ![e, d]⟩ where
  updateWindowDims := [1]
  insertedWindowDims := [0]
  scatterDimsToOperandDims := [0]
  indexVectorDim := 1
  wf := wf

/-- The dimension numbers of a vector scatter: operand `[n]`, scatter indices `[e, 1]`, updates `[e]`. -/
abbrev vecDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

/-! ## The row scatter: start and window coordinate of update index `(p, q)` on each operand axis -/

/-- Operand axis 0 is the inserted one: its window coordinate is `0`. -/
theorem rows_window0 {n e d : Nat} (wf : ScatterDims.WF ⟨2, ![n, d]⟩ ⟨2, ![e, 1]⟩ ⟨2, ![e, d]⟩ [1] [0] [0] 1)
    (p : Fin e) (q : Fin d) : (rowsDims n e d wf).window (ix2 p q) 0 = 0 := by
  have hk : (rowsDims n e d wf).sKept = [(1 : Fin 2)] := rfl
  unfold ScatterDims.window
  rw [dif_neg (by rw [hk]; show (0 : Fin 2) ∉ [(1 : Fin 2)]; decide)]

/-- Operand axis 1 is the one kept axis; the one window axis of the updates, their axis 1, goes to it: the window
    coordinate there is the column `q`. -/
theorem rows_window1 {n e d : Nat} (wf : ScatterDims.WF ⟨2, ![n, d]⟩ ⟨2, ![e, 1]⟩ ⟨2, ![e, d]⟩ [1] [0] [0] 1)
    (p : Fin e) (q : Fin d) : (rowsDims n e d wf).window (ix2 p q) 1 = q.val := by
  have hk : (rowsDims n e d wf).sKept = [(1 : Fin 2)] := rfl
  unfold ScatterDims.window
  rw [dif_pos (by rw [hk]; exact List.mem_singleton.mpr rfl)]
  rfl

/-- The index vector names operand axis 0 only: on axis 1 the window starts at `0`. -/
theorem rows_start1 {n e d w : Nat} (wf : ScatterDims.WF ⟨2, ![n, d]⟩ ⟨2, ![e, 1]⟩ ⟨2, ![e, d]⟩ [1] [0] [0] 1)
    (p : Fin e) (q : Fin d) (idx : IVec ⟨2, ![e, 1]⟩ w) : (rowsDims n e d wf).start (ix2 p q) idx 1 = 0 := by
  unfold ScatterDims.start
  rw [dif_neg (by show (1 : Fin 2) ∉ [(0 : Fin 2)]; decide)]

/-- On axis 0 the window starts at the index word of row `p`: the scatter indices at `(p, 0)`, read signed. -/
theorem rows_start0 {n e d w : Nat} (wf : ScatterDims.WF ⟨2, ![n, d]⟩ ⟨2, ![e, 1]⟩ ⟨2, ![e, d]⟩ [1] [0] [0] 1)
    (p : Fin e) (q : Fin d) (idx : IVec ⟨2, ![e, 1]⟩ w) :
    (rowsDims n e d wf).start (ix2 p q) idx 0 = (idx (ix2 p (0 : Fin 1))).toInt := by
  unfold ScatterDims.start
  rw [dif_pos (show (0 : Fin 2) ∈ (rowsDims n e d wf).scatterDimsToOperandDims from List.mem_singleton.mpr rfl)]
  have hsi : (rowsDims n e d wf).siIdx (ix2 p q) ⟨List.idxOf (0 : Fin 2) (rowsDims n e d wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- WHERE AN UPDATE LANDS: update `(p, q)` has result index `(i, j)` exactly when row `p`'s index word is `i` and the
    column is kept, `q = j`. (If the word is outside `[0, n)` the update has no result index at all.) -/
theorem rows_resultIdx_iff {n e d w : Nat} (wf : ScatterDims.WF ⟨2, ![n, d]⟩ ⟨2, ![e, 1]⟩ ⟨2, ![e, d]⟩ [1] [0] [0] 1)
    (p : Fin e) (q : Fin d) (i : Fin n) (j : Fin d) (idx : IVec ⟨2, ![e, 1]⟩ w) :
    (rowsDims n e d wf).resultIdx? (ix2 p q) idx = some (ix2 i j)
      ↔ (idx (ix2 p (0 : Fin 1))).toInt = (i.val : Int) ∧ q = j := by
  have hs0 := rows_start0 wf p q idx
  have hs1 := rows_start1 (w := w) wf p q idx
  have hw0 := rows_window0 wf p q
  have hw1 := rows_window1 wf p q
  unfold ScatterDims.resultIdx?
  split_ifs with h
  · -- the window is inside the operand: compare the two coordinates
    constructor
    · intro hE
      have hE' := Option.some.inj hE
      have h0 : ((rowsDims n e d wf).start (ix2 p q) idx 0 + ((rowsDims n e d wf).window (ix2 p q) 0 : Nat)).toNat = i.val :=
        congrArg Fin.val (congrFun hE' 0)
      have h1 : ((rowsDims n e d wf).start (ix2 p q) idx 1 + ((rowsDims n e d wf).window (ix2 p q) 1 : Nat)).toNat = j.val :=
        congrArg Fin.val (congrFun hE' 1)
      have hh := (h 0).1
      rw [hs0, hw0] at h0 hh
      rw [hs1, hw1] at h1
      refine ⟨by omega, Fin.ext (by omega)⟩
    · rintro ⟨hi, rfl⟩
      congr 1
      funext a
      refine Fin.ext ?_
      match a with
      | ⟨0, _⟩ =>
        show ((rowsDims n e d wf).start (ix2 p q) idx 0 + ((rowsDims n e d wf).window (ix2 p q) 0 : Nat)).toNat = i.val
        rw [hs0, hw0, hi]; simp
      | ⟨1, _⟩ =>
        show ((rowsDims n e d wf).start (ix2 p q) idx 1 + ((rowsDims n e d wf).window (ix2 p q) 1 : Nat)).toNat = q.val
        rw [hs1, hw1]; simp
  · -- the window leaves the operand: then the index word is not a row number, so it is not `i`
    constructor
    · intro hE; cases hE
    · rintro ⟨hi, rfl⟩
      refine absurd (fun a => ?_) h
      match a with
      | ⟨0, _⟩ =>
        show 0 ≤ (rowsDims n e d wf).start (ix2 p q) idx 0 + ((rowsDims n e d wf).window (ix2 p q) 0 : Nat)
          ∧ (rowsDims n e d wf).start (ix2 p q) idx 0 + ((rowsDims n e d wf).window (ix2 p q) 0 : Nat) < ((n : Nat) : Int)
        rw [hs0, hw0, hi]; have := i.isLt; omega
      | ⟨1, _⟩ =>
        show 0 ≤ (rowsDims n e d wf).start (ix2 p q) idx 1 + ((rowsDims n e d wf).window (ix2 p q) 1 : Nat)
          ∧ (rowsDims n e d wf).start (ix2 p q) idx 1 + ((rowsDims n e d wf).window (ix2 p q) 1 : Nat) < ((d : Nat) : Int)
        rw [hs1, hw1]; have := q.isLt; omega

/-- THE ROW SCATTER-ADD READ AT `(i, j)`: the operand's element plus the sum of the update rows whose index word is `i`. -/
theorem scatterAdd_rows_apply {n e d w : Nat} {φ : FTy}
    (wf : ScatterDims.WF ⟨2, ![n, d]⟩ ⟨2, ![e, 1]⟩ ⟨2, ![e, d]⟩ [1] [0] [0] 1)
    (x : FVec Ideal ⟨2, ![n, d]⟩ φ) (idx : IVec ⟨2, ![e, 1]⟩ w) (upd : FVec Ideal ⟨2, ![e, d]⟩ φ) (i : Fin n) (j : Fin d) :
    Host.scatterAdd (F := Ideal) (rowsDims n e d wf) x idx upd (ix2 i j)
      = x (ix2 i j) + ∑ p ∈ Finset.univ.filter (fun p : Fin e => (idx (ix2 p (0 : Fin 1))).toInt = (i.val : Int)), upd (ix2 p j) := by
  -- the ideal scatter-add: the operand's element plus the sum of the updates landing on it
  show x (ix2 i j) + ∑ j' ∈ Finset.univ.filter (fun j' => (rowsDims n e d wf).resultIdx? j' idx = some (ix2 i j)), upd j' = _
  congr 1
  -- both filtered sums as sums of guarded terms; the left one by coordinates, row by row
  rw [Finset.sum_filter, Finset.sum_filter, sum_idx2]
  refine Finset.sum_congr rfl fun p _ => ?_
  by_cases hp : (idx (ix2 p (0 : Fin 1))).toInt = (i.val : Int)
  · -- row `p` is sent to `i`: of its columns only `q = j` lands at `(i, j)`
    rw [if_pos hp, Finset.sum_eq_single j]
    · rw [if_pos ((rows_resultIdx_iff wf p j i j idx).2 ⟨hp, rfl⟩)]
    · intro q _ hq
      rw [if_neg (fun h => hq ((rows_resultIdx_iff wf p q i j idx).1 h).2)]
    · intro h; exact absurd (Finset.mem_univ j) h
  · -- row `p` is sent elsewhere (or nowhere): none of its columns lands at `(i, j)`
    rw [if_neg hp]
    exact Finset.sum_eq_zero fun q _ => if_neg (fun h => hp ((rows_resultIdx_iff wf p q i j idx).1 h).1)

/-! ## The vector scatter: the same without the column -/

/-- The operand's one axis is the inserted one: its window coordinate is `0`. -/
theorem vec_window0 {n e : Nat} (wf : ScatterDims.WF ⟨1, ![n]⟩ ⟨2, ![e, 1]⟩ ⟨1, ![e]⟩ [] [0] [0] 1)
    (p : Fin e) : (vecDims n e wf).window (ix1 p) 0 = 0 := by
  have hk : (vecDims n e wf).sKept = [] := rfl
  unfold ScatterDims.window
  rw [dif_neg (by rw [hk]; exact List.not_mem_nil)]

/-- The window starts at the index word of update `p`: the scatter indices at `(p, 0)`, read signed. -/
theorem vec_start0 {n e w : Nat} (wf : ScatterDims.WF ⟨1, ![n]⟩ ⟨2, ![e, 1]⟩ ⟨1, ![e]⟩ [] [0] [0] 1)
    (p : Fin e) (idx : IVec ⟨2, ![e, 1]⟩ w) :
    (vecDims n e wf).start (ix1 p) idx 0 = (idx (ix2 p (0 : Fin 1))).toInt := by
  unfold ScatterDims.start
  rw [dif_pos (show (0 : Fin 1) ∈ (vecDims n e wf).scatterDimsToOperandDims from List.mem_singleton.mpr rfl)]
  have hsi : (vecDims n e wf).siIdx (ix1 p) ⟨List.idxOf (0 : Fin 1) (vecDims n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- WHERE AN UPDATE LANDS: update `p` has result index `i` exactly when its index word is `i`. -/
theorem vec_resultIdx_iff {n e w : Nat} (wf : ScatterDims.WF ⟨1, ![n]⟩ ⟨2, ![e, 1]⟩ ⟨1, ![e]⟩ [] [0] [0] 1)
    (p : Fin e) (i : Fin n) (idx : IVec ⟨2, ![e, 1]⟩ w) :
    (vecDims n e wf).resultIdx? (ix1 p) idx = some (ix1 i)
      ↔ (idx (ix2 p (0 : Fin 1))).toInt = (i.val : Int) := by
  have hs0 := vec_start0 wf p idx
  have hw0 := vec_window0 wf p
  unfold ScatterDims.resultIdx?
  split_ifs with h
  · constructor
    · intro hE
      have hE' := Option.some.inj hE
      have h0 : ((vecDims n e wf).start (ix1 p) idx 0 + ((vecDims n e wf).window (ix1 p) 0 : Nat)).toNat = i.val :=
        congrArg Fin.val (congrFun hE' 0)
      have hh := (h 0).1
      rw [hs0, hw0] at h0 hh
      omega
    · intro hi
      congr 1
      funext a
      refine Fin.ext ?_
      match a with
      | ⟨0, _⟩ =>
        show ((vecDims n e wf).start (ix1 p) idx 0 + ((vecDims n e wf).window (ix1 p) 0 : Nat)).toNat = i.val
        rw [hs0, hw0, hi]; simp
  · constructor
    · intro hE; cases hE
    · intro hi
      refine absurd (fun a => ?_) h
      match a with
      | ⟨0, _⟩ =>
        show 0 ≤ (vecDims n e wf).start (ix1 p) idx 0 + ((vecDims n e wf).window (ix1 p) 0 : Nat)
          ∧ (vecDims n e wf).start (ix1 p) idx 0 + ((vecDims n e wf).window (ix1 p) 0 : Nat) < ((n : Nat) : Int)
        rw [hs0, hw0, hi]; have := i.isLt; omega

/-- A rank-1 index set is its one coordinate range. -/
def idxEquiv1 {m : Nat} : (⟨1, ![m]⟩ : Shape).Idx ≃ Fin m where
  toFun i := i 0
  invFun p := ix1 p
  left_inv i := (eq_ix1 i).symm
  right_inv _ := rfl

/-- THE VECTOR SCATTER-ADD READ AT `i`: the operand's element plus the sum of the updates whose index word is `i`. -/
theorem scatterAdd_vec_apply {n e w : Nat} {φ : FTy}
    (wf : ScatterDims.WF ⟨1, ![n]⟩ ⟨2, ![e, 1]⟩ ⟨1, ![e]⟩ [] [0] [0] 1)
    (x : FVec Ideal ⟨1, ![n]⟩ φ) (idx : IVec ⟨2, ![e, 1]⟩ w) (upd : FVec Ideal ⟨1, ![e]⟩ φ) (i : Fin n) :
    Host.scatterAdd (F := Ideal) (vecDims n e wf) x idx upd (ix1 i)
      = x (ix1 i) + ∑ p ∈ Finset.univ.filter (fun p : Fin e => (idx (ix2 p (0 : Fin 1))).toInt = (i.val : Int)), upd (ix1 p) := by
  show x (ix1 i) + ∑ j' ∈ Finset.univ.filter (fun j' => (vecDims n e wf).resultIdx? j' idx = some (ix1 i)), upd j' = _
  congr 1
  -- both filtered sums as sums of guarded terms, the left one over the coordinate; then term by term
  rw [Finset.sum_filter, Finset.sum_filter, ← Equiv.sum_comp (idxEquiv1 (m := e)).symm]
  refine Finset.sum_congr rfl fun p _ => ?_
  show (if (vecDims n e wf).resultIdx? (ix1 p) idx = some (ix1 i) then upd (ix1 p) else 0) = _
  by_cases hp : (idx (ix2 p (0 : Fin 1))).toInt = (i.val : Int)
  · rw [if_pos hp, if_pos ((vec_resultIdx_iff wf p i idx).2 hp)]
  · rw [if_neg hp, if_neg (fun h => hp ((vec_resultIdx_iff wf p i idx).1 h))]

end Idealize.ShloMosaic.ScatterRows

end
-- ==== Proof.Bridge0.lean ====
/-
  The quantities both programs share before any aggregation, on the extended reals: the degree weights are one and the
  same term in the kernel program and in the reference (which computes it twice), each weight is a real number (the
  reciprocal square root of a count of edges plus one, which is positive), and the kernel's `x · W1` is the reference's
  product entry by entry, real when the inputs are.
-/
import proofs.«401091_j22041772163615_3_alg».proof.Proof.KTerms
import proofs.«401091_j22041772163615_3_alg».proof.Proof.Gen.ReferenceIdeal.Read
import proofs.«401091_j22041772163615_3_alg».proof.Proof.LibRealSums
import proofs.«401091_j22041772163615_3_alg».proof.Proof.LibGatherRows
import proofs.«401091_j22041772163615_3_alg».proof.Proof.LibScatterRows
import proofs.«401091_j22041772163615_3_alg».proof.Proof.LibKeepdims
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx Idealize.ShloMosaic.RealSums
open Cert.KernelIdeal (S100000x12 S2x1600000 S12x128 S128 S128x64 S64)

variable (x0 : FVec Ideal S100000x12 .f32) (x1 : IVec S2x1600000 32) (x2 : FVec Ideal S12x128 .f32)
  (x3 : FVec Ideal S128 .f32) (x4 : FVec Ideal S128x64 .f32) (x5 : FVec Ideal S64 .f32)

/-- The degree weights: one term in both programs. -/
theorem dinv_eq : Cert.KernelIdeal.KV.dinv x1 = Cert.ReferenceIdeal.Read.val_main_v11 (F := Ideal) x1 := by
  -- both sides are the reciprocal square root of (the scatter-add of ones at the targets' column into zeros, plus ones)
  unfold Cert.KernelIdeal.KV.dinv Cert.KernelIdeal.KV.col Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v3
    Cert.ReferenceIdeal.Read.val_main_v2 Cert.ReferenceIdeal.Read.val_main_cst Cert.ReferenceIdeal.Read.val_main_cst_0
    Cert.ReferenceIdeal.Read.val_main_cst_1
  rfl

/-- The reference computes the weights a second time for its second layer: the same term again. -/
theorem dinv_eq2 : Cert.ReferenceIdeal.Read.val_main_v56 (F := Ideal) x1 = Cert.ReferenceIdeal.Read.val_main_v11 (F := Ideal) x1 := by
  -- the second chain repeats the first over the same targets' column, with constants of the same words
  unfold Cert.ReferenceIdeal.Read.val_main_v56 Cert.ReferenceIdeal.Read.val_main_v55 Cert.ReferenceIdeal.Read.val_main_v54
    Cert.ReferenceIdeal.Read.val_main_v53 Cert.ReferenceIdeal.Read.val_main_v52 Cert.ReferenceIdeal.Read.val_main_v51
    Cert.ReferenceIdeal.Read.val_main_v50 Cert.ReferenceIdeal.Read.val_main_cst_8 Cert.ReferenceIdeal.Read.val_main_cst_9
    Cert.ReferenceIdeal.Read.val_main_cst_10
    Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_cst
    Cert.ReferenceIdeal.Read.val_main_cst_0 Cert.ReferenceIdeal.Read.val_main_cst_1
  rfl

/-- The kernel program's degree scatter has the dimension numbers of a vector scatter: operand `[100000]`, indices
    `[1600000, 1]`, updates `[1600000]`. -/
theorem kscatVec : Cert.KernelIdeal.scatter_S100000_S1600000x1_S1600000_n_0_0_1
    = ScatterRows.vecDims 100000 1600000 Cert.KernelIdeal.Facts₀.scatter_S100000_S1600000x1_S1600000_n_0_0_1_wf := rfl

/-- A scalar constant broadcast to any shape reads as its float at every index. -/
theorem bcast_const_apply {t : Shape} (h : Cert.KernelIdeal.S_.BroadcastsInDim t (![] : Fin 0 → Fin t.rank)) (w : BitVec 32) (i : t.Idx) :
    broadcastInDim t ![] h (constant (F := Ideal) Cert.KernelIdeal.S_ .f32 w) i = Ideal.ofBits .f32 w := by
  rw [broadcastInDim_apply _ h _ i (fun a => a.elim0) (fun a => a.elim0)]
  rfl

/-- The host's reciprocal square root of an array, entry by entry. -/
theorem host_rsqrt_apply {s : Shape} (v : FVec Ideal s .f32) (i : s.Idx) : Host.rsqrt v i = Ideal.rsqrt (v i) := rfl

/-- The weight of node `r`: the reciprocal square root of (zero, plus a one for each edge whose target word, read signed,
    is `r`), plus one. -/
theorem dinv_apply (r : Fin 100000) :
    Cert.KernelIdeal.KV.dinv x1 (ix1 r)
      = Ideal.rsqrt ((Ideal.ofBits .f32 0x00000000#32
          + ∑ p ∈ Finset.univ.filter (fun p : Fin 1600000 =>
              (broadcastInDim Cert.KernelIdeal.S1600000x1 ![0] Cert.KernelIdeal.Facts₀.bcast_S1600000_S1600000x1_0 (Cert.KernelIdeal.KV.col x1) (ix2 p (0 : Fin 1))).toInt = (r.val : Int)),
              Ideal.ofBits .f32 0x3F800000#32) + Ideal.ofBits .f32 0x3F800000#32) := by
  unfold Cert.KernelIdeal.KV.dinv
  rw [host_rsqrt_apply, addf_apply, kscatVec, ScatterRows.scatterAdd_vec_apply, bcast_const_apply, bcast_const_apply]
  rfl

/-- The reciprocal square root of (zero plus a finite sum of ones) plus one is a real number: the sum is a real `s ≥ 0`,
    so the argument is the real `s + 1 > 0`. -/
theorem isReal_rsqrt_count {ι : Type} (S : Finset ι) :
    IsReal (Ideal.rsqrt (((0 : EReal) + ∑ p ∈ S, (1 : EReal)) + 1)) := by
  obtain ⟨s, hs⟩ := IsReal.sum S (fun _ => (1 : EReal)) (fun _ _ => isReal_one)
  have h0 : (0 : EReal) ≤ ∑ p ∈ S, (1 : EReal) := Finset.sum_nonneg fun _ _ => zero_le_one
  rw [hs] at h0 ⊢
  have hs0 : 0 ≤ s := EReal.coe_nonneg.mp h0
  have e : (0 : EReal) + (s : EReal) + 1 = ((s + 1 : ℝ) : EReal) := by rw [zero_add, EReal.coe_add, EReal.coe_one]
  rw [e]
  exact isReal_rsqrt_of_pos (add_pos_of_nonneg_of_pos hs0 one_pos)

/-- Every weight is a real number: the reciprocal square root of a count plus one. -/
theorem dinv_real : ∀ i, IsReal (Cert.KernelIdeal.KV.dinv x1 i) := by
  intro i
  obtain ⟨r, rfl⟩ : ∃ r : Fin 100000, i = ix1 r := ⟨i 0, eq_ix1 i⟩
  rw [dinv_apply, Ideal.ofBits_zero_f32, Ideal.ofBits_one_f32]
  exact isReal_rsqrt_count _

/-- Where the reference's product reads its left operand: row `r`, column `k`. -/
theorem lidx_v4 (r : Fin 100000) (q : Fin 128) (k : Fin 12) :
    Cert.ReferenceIdeal.Read.lidx_main_v4 (ix2 r q) k = ix2 r k :=
  funext fun a => Fin.ext (by match a with | ⟨0, _⟩ => rfl | ⟨1, _⟩ => rfl)

/-- Where it reads its right operand: row `k`, column `q`. -/
theorem ridx_v4 (r : Fin 100000) (q : Fin 128) (k : Fin 12) :
    Cert.ReferenceIdeal.Read.ridx_main_v4 (ix2 r q) k = ix2 k q :=
  funext fun a => Fin.ext (by match a with | ⟨0, _⟩ => rfl | ⟨1, _⟩ => rfl)

/-- `x · W1`, entry by entry, is the reference's product. -/
theorem h1_eq : Cert.KernelIdeal.KV.h1 x0 x2 = Cert.ReferenceIdeal.Read.val_main_v4 (F := Ideal) x0 x2 := by
  funext i
  obtain ⟨r, q, rfl⟩ : ∃ (r : Fin 100000) (q : Fin 128), i = ix2 r q := ⟨i 0, i 1, eq_ix2 i⟩
  unfold Cert.KernelIdeal.KV.h1
  rw [Cert.GcnSpec.mm_apply, Cert.ReferenceIdeal.Read.val_main_v4_apply]
  refine Finset.sum_congr rfl fun k _ => ?_
  rw [lidx_v4, ridx_v4]

/-- Its entries are real numbers when the inputs' are. -/
theorem h1_real (hx0 : ∀ i, IsReal (x0 i)) (hx2 : ∀ i, IsReal (x2 i)) : ∀ i, IsReal (Cert.KernelIdeal.KV.h1 x0 x2 i) := by
  intro i
  obtain ⟨r, q, rfl⟩ : ∃ (r : Fin 100000) (q : Fin 128), i = ix2 r q := ⟨i 0, i 1, eq_ix2 i⟩
  unfold Cert.KernelIdeal.KV.h1
  rw [Cert.GcnSpec.mm_apply]
  exact IsReal.sum _ _ fun k _ => (hx0 _).mul (hx2 _)

end Cert.Bridge

end
-- ==== Proof.Bridge1.lean ====
/-
  The kernel program's first layer is the reference's, array by array, on the extended reals.

  The degree weights are the same term in both programs. `h1 = x · W1` is the reference's product entry by entry. The
  reference sums, into node `i`, each edge's message `h1[src] · (w[src] · w[dst])`; the kernel sums `h1[src] · w[src]`
  and scales the sum by `w[i]` afterwards: every edge summed into `i` has `dst = i`, and all the numbers are real (the
  inputs are finite, a degree plus one is positive), so the factor `w[i]` distributes over the sum. With no negative
  node number the two programs' different treatments of a negative index never come into play; a number too large is
  clamped by both programs' gathers and lands nowhere in both programs' scatter-adds. Hence the layer's combination is
  the reference's pre-activation, and `h2`, its rectified product with `W2`, the reference's.
-/
import proofs.«401091_j22041772163615_3_alg».proof.Proof.KTerms
import proofs.«401091_j22041772163615_3_alg».proof.Proof.Gen.ReferenceIdeal.Read
import proofs.«401091_j22041772163615_3_alg».proof.Proof.LibRealSums
import proofs.«401091_j22041772163615_3_alg».proof.Proof.LibGatherRows
import proofs.«401091_j22041772163615_3_alg».proof.Proof.LibScatterRows
import proofs.«401091_j22041772163615_3_alg».proof.Proof.LibKeepdims
import proofs.«401091_j22041772163615_3_alg».proof.Proof.Bridge0
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx Idealize.ShloMosaic.RealSums
open Cert.KernelIdeal (S100000x12 S2x1600000 S12x128 S128 S128x64 S64)

variable (x0 : FVec Ideal S100000x12 .f32) (x1 : IVec S2x1600000 32) (x2 : FVec Ideal S12x128 .f32)
  (x3 : FVec Ideal S128 .f32) (x4 : FVec Ideal S128x64 .f32) (x5 : FVec Ideal S64 .f32)

/-! ## The dimension-number records are the general ones -/

theorem l1_kscat : Cert.KernelIdeal.scatter_S100000x128_S1600000x1_S1600000x128_1_0_0_1
    = ScatterRows.rowsDims 100000 1600000 128 Cert.KernelIdeal.Facts₀.scatter_S100000x128_S1600000x1_S1600000x128_1_0_0_1_wf := rfl

theorem l1_kgath : Cert.KernelIdeal.gather_S100000x128_S1600000x1_S1600000x128_1_0_n_n_0_1_1128
    = GatherRows.rowsDims 100000 1600000 128 Cert.KernelIdeal.Facts₀.gather_S100000x128_S1600000x1_S1600000x128_1_0_n_n_0_1_1128_wf := rfl

theorem l1_rscat : Cert.ReferenceIdeal.scatter_S100000x128_S1600000x1_S1600000x128_1_0_0_1
    = ScatterRows.rowsDims 100000 1600000 128 Cert.ReferenceIdeal.Facts₀.scatter_S100000x128_S1600000x1_S1600000x128_1_0_0_1_wf := rfl

theorem l1_rgath : Cert.ReferenceIdeal.gather_S100000x128_S1600000x1_S1600000x128_1_0_n_n_0_1_1128
    = GatherRows.rowsDims 100000 1600000 128 Cert.ReferenceIdeal.Facts₀.gather_S100000x128_S1600000x1_S1600000x128_1_0_n_n_0_1_1128_wf := rfl

theorem l1_rgathv : Cert.ReferenceIdeal.gather_S100000_S1600000x1_S1600000_n_0_n_n_0_1_1
    = GatherRows.vecDims 100000 1600000 Cert.ReferenceIdeal.Facts₀.gather_S100000_S1600000x1_S1600000_n_0_n_n_0_1_1_wf := rfl

/-! ## Reading the edge list -/

/-- A word that is not negative is not moved: the select on `w < 0` keeps the raw word. -/
theorem l1_select_nonneg {α : Type} (w : BitVec 32) (hw : 0 ≤ w.toInt) (a b : α) :
    Scalar.select (IntOp.cmpi .slt w 0#32) a b = b := by
  have h : IntOp.cmpi .slt w 0#32 = 0#1 := by
    have hs : w.slt 0#32 = false := by
      unfold BitVec.slt
      have h0 : (0#32 : BitVec 32).toInt = 0 := by decide
      rw [h0]
      exact decide_eq_false (not_lt.mpr hw)
    show BitVec.ofBool (w.slt 0#32) = 0#1
    rw [hs]; rfl
  rw [h, select_zero]

/-- The kernel program's sources: row 0 of the edge list. -/
theorem l1_row_apply (p : Fin 1600000) : Cert.KernelIdeal.KV.row x1 (ix1 p) = x1 (ix2 (0 : Fin 2) p) := by
  unfold Cert.KernelIdeal.KV.row
  rw [shapeCast_apply _ _ (ix1 p) (ix2 (0 : Fin 1) p) (by
    rw [Shape.rowMajor_val_two, Shape.rowMajor_val_one]; show 0 * 1600000 + p.val = p.val; omega)]
  exact extractStridedSlice_apply _ x1 _ _ (ix2 (0 : Fin 2) p) (fun a => match a with
    | ⟨0, _⟩ => rfl
    | ⟨1, _⟩ => by show p.val = 0 + p.val; omega)

/-- The kernel program's targets: row 1 of the edge list. -/
theorem l1_col_apply (p : Fin 1600000) : Cert.KernelIdeal.KV.col x1 (ix1 p) = x1 (ix2 (1 : Fin 2) p) := by
  unfold Cert.KernelIdeal.KV.col
  rw [shapeCast_apply _ _ (ix1 p) (ix2 (0 : Fin 1) p) (by
    rw [Shape.rowMajor_val_two, Shape.rowMajor_val_one]; show 0 * 1600000 + p.val = p.val; omega)]
  exact extractStridedSlice_apply _ x1 _ _ (ix2 (1 : Fin 2) p) (fun a => match a with
    | ⟨0, _⟩ => rfl
    | ⟨1, _⟩ => by show p.val = 0 + p.val; omega)

/-- With no negative word, the kernel program's normalised targets are the raw ones. -/
theorem l1_colN_apply (hx1 : ∀ i, 0 ≤ (x1 i).toInt) (p : Fin 1600000) :
    Cert.KernelIdeal.KV.colN x1 (ix1 p) = x1 (ix2 (1 : Fin 2) p) := by
  unfold Cert.KernelIdeal.KV.colN
  rw [select_apply]
  show Scalar.select (IntOp.cmpi .slt (Cert.KernelIdeal.KV.col x1 (ix1 p)) 0#32) _ _ = _
  rw [l1_col_apply, l1_select_nonneg _ (hx1 _)]

/-- The kernel program's column of a vector reads, at `(p, 0)`, the vector at `p`. -/
theorem l1_kcolumn_apply {α : Type} (v : Cert.KernelIdeal.S1600000.Idx → α) (p : Fin 1600000) :
    broadcastInDim Cert.KernelIdeal.S1600000x1 ![0] Cert.KernelIdeal.Facts₀.bcast_S1600000_S1600000x1_0 v (ix2 p (0 : Fin 1)) = v (ix1 p) :=
  broadcastInDim_apply _ _ v _ (ix1 p) (fun a => match a with
    | ⟨0, _⟩ => by show p.val = if (1600000 : Nat) = 1 then 0 else p.val; rw [if_neg (by decide)])

/-- The reference's sources are the kernel program's: the same slice and reshape. -/
theorem l1_v1_apply (p : Fin 1600000) : Cert.ReferenceIdeal.Read.val_main_v1 (F := Ideal) x1 (ix1 p) = x1 (ix2 (0 : Fin 2) p) :=
  l1_row_apply x1 p

/-- The reference's targets are the kernel program's. -/
theorem l1_v3_apply (p : Fin 1600000) : Cert.ReferenceIdeal.Read.val_main_v3 (F := Ideal) x1 (ix1 p) = x1 (ix2 (1 : Fin 2) p) :=
  l1_col_apply x1 p

/-- The reference's column of a vector reads, at `(p, 0)`, the vector at `p`. -/
theorem l1_rcolumn_apply {α : Type} (v : Cert.ReferenceIdeal.S1600000.Idx → α) (p : Fin 1600000) :
    broadcastInDim Cert.ReferenceIdeal.S1600000x1 ![0] Cert.ReferenceIdeal.Facts₀.bcast_S1600000_S1600000x1_0 v (ix2 p (0 : Fin 1)) = v (ix1 p) :=
  broadcastInDim_apply _ _ v _ (ix1 p) (fun a => match a with
    | ⟨0, _⟩ => by show p.val = if (1600000 : Nat) = 1 then 0 else p.val; rw [if_neg (by decide)])

/-- The normalised sources the weight gather reads are the raw ones. -/
theorem l1_v17_apply (hx1 : ∀ i, 0 ≤ (x1 i).toInt) (p : Fin 1600000) :
    Cert.ReferenceIdeal.Read.val_main_v17 (F := Ideal) x1 (ix2 p (0 : Fin 1)) = x1 (ix2 (0 : Fin 2) p) := by
  unfold Cert.ReferenceIdeal.Read.val_main_v17
  rw [l1_rcolumn_apply]
  show Scalar.select (IntOp.cmpi .slt (Cert.ReferenceIdeal.Read.val_main_v1 (F := Ideal) x1 (ix1 p)) 0#32) _ _ = _
  rw [l1_v1_apply, l1_select_nonneg _ (hx1 _)]

/-- The normalised targets the weight gather reads are the raw ones. -/
theorem l1_v24_apply (hx1 : ∀ i, 0 ≤ (x1 i).toInt) (p : Fin 1600000) :
    Cert.ReferenceIdeal.Read.val_main_v24 (F := Ideal) x1 (ix2 p (0 : Fin 1)) = x1 (ix2 (1 : Fin 2) p) := by
  unfold Cert.ReferenceIdeal.Read.val_main_v24
  rw [l1_rcolumn_apply]
  show Scalar.select (IntOp.cmpi .slt (Cert.ReferenceIdeal.Read.val_main_v3 (F := Ideal) x1 (ix1 p)) 0#32) _ _ = _
  rw [l1_v3_apply, l1_select_nonneg _ (hx1 _)]

/-- The normalised sources the row gather reads are the raw ones. -/
theorem l1_v32_apply (hx1 : ∀ i, 0 ≤ (x1 i).toInt) (p : Fin 1600000) :
    Cert.ReferenceIdeal.Read.val_main_v32 (F := Ideal) x1 (ix2 p (0 : Fin 1)) = x1 (ix2 (0 : Fin 2) p) := by
  unfold Cert.ReferenceIdeal.Read.val_main_v32
  rw [l1_rcolumn_apply]
  show Scalar.select (IntOp.cmpi .slt (Cert.ReferenceIdeal.Read.val_main_v1 (F := Ideal) x1 (ix1 p)) 0#32) _ _ = _
  rw [l1_v1_apply, l1_select_nonneg _ (hx1 _)]

/-- The raw targets the reference's scatter reads. -/
theorem l1_v38_apply (p : Fin 1600000) :
    Cert.ReferenceIdeal.Read.val_main_v38 (F := Ideal) x1 (ix2 p (0 : Fin 1)) = x1 (ix2 (1 : Fin 2) p) := by
  unfold Cert.ReferenceIdeal.Read.val_main_v38
  rw [l1_rcolumn_apply, l1_v3_apply]

/-! ## The edges' end nodes, and the gathers at a word -/

/-- The node a gather reads at an index word: the word, read signed, clamped into `[0, 99999]`. -/
def l1_node (w : BitVec 32) : Fin 100000 := ⟨min w.toInt.toNat 99999, by omega⟩

/-- The source node of edge `p`. -/
def l1_src (p : Fin 1600000) : Fin 100000 := l1_node (x1 (ix2 (0 : Fin 2) p))

/-- The target node of edge `p`. -/
def l1_dst (p : Fin 1600000) : Fin 100000 := l1_node (x1 (ix2 (1 : Fin 2) p))

theorem l1_src_of (p : Fin 1600000) (w : BitVec 32) (h : w = x1 (ix2 (0 : Fin 2) p)) : l1_node w = l1_src x1 p := by
  subst h; rfl

theorem l1_dst_of (p : Fin 1600000) (w : BitVec 32) (h : w = x1 (ix2 (1 : Fin 2) p)) : l1_node w = l1_dst x1 p := by
  subst h; rfl

/-- The edges that end at node `r`: those whose target word, read signed, is `r`. -/
def l1_into (r : Fin 100000) : Finset (Fin 1600000) :=
  Finset.univ.filter (fun p : Fin 1600000 => (x1 (ix2 (1 : Fin 2) p)).toInt = (r.val : Int))

/-- Every edge of `l1_into r` has target node `r`: the clamp does not move a word that is a node number. -/
theorem l1_dst_of_mem (r : Fin 100000) (p : Fin 1600000) (hp : p ∈ l1_into x1 r) : l1_dst x1 p = r := by
  have h := (Finset.mem_filter.mp hp).2
  refine Fin.ext ?_
  show min (x1 (ix2 (1 : Fin 2) p)).toInt.toNat 99999 = r.val
  have := r.isLt
  omega

/-- A vector gather from `[100000]` reads, at `p`, the operand at the node its index word names. -/
theorem l1_gather_vec {α : Type} {e : Nat}
    (wf : GatherDims.WF ⟨1, ![100000]⟩ ⟨2, ![e, 1]⟩ ⟨1, ![e]⟩ [] [0] [] [0] [] 1 ![1])
    (x : (⟨1, ![100000]⟩ : Shape).Idx → α) (idx : IVec ⟨2, ![e, 1]⟩ 32) (p : Fin e) (k : Fin 100000)
    (hk : l1_node (idx (ix2 p (0 : Fin 1))) = k) :
    Host.gather (GatherRows.vecDims 100000 e wf) x idx (ix1 p) = x (ix1 k) := by
  rw [GatherRows.gather_vec_apply (by decide) wf x idx p]
  exact congrArg (fun j => x (ix1 j)) hk

/-- A row gather from `[100000, d]` reads, at `(p, q)`, column `q` of the row its index word names. -/
theorem l1_gather_rows {α : Type} {e d : Nat}
    (wf : GatherDims.WF ⟨2, ![100000, d]⟩ ⟨2, ![e, 1]⟩ ⟨2, ![e, d]⟩ [1] [0] [] [0] [] 1 ![1, d])
    (x : (⟨2, ![100000, d]⟩ : Shape).Idx → α) (idx : IVec ⟨2, ![e, 1]⟩ 32) (p : Fin e) (q : Fin d) (k : Fin 100000)
    (hk : l1_node (idx (ix2 p (0 : Fin 1))) = k) :
    Host.gather (GatherRows.rowsDims 100000 e d wf) x idx (ix2 p q) = x (ix2 k q) := by
  rw [GatherRows.gather_rows_apply (by decide) wf x idx p q]
  exact congrArg (fun j => x (ix2 j q)) hk

/-! ## The two aggregates at an index -/

/-- THE KERNEL PROGRAM'S AGGREGATE at `(r, q)`: the zero word plus, over the edges ending at `r`, the source's row of
    `h1` scaled by the source's weight. -/
theorem l1_agg1_apply (hx1 : ∀ i, 0 ≤ (x1 i).toInt) (r : Fin 100000) (q : Fin 128) :
    Cert.KernelIdeal.KV.agg1 x0 x1 x2 (ix2 r q)
      = Ideal.ofBits .f32 0x00000000#32 + ∑ p ∈ l1_into x1 r,
          Cert.KernelIdeal.KV.h1 x0 x2 (ix2 (l1_src x1 p) q) * Cert.KernelIdeal.KV.dinv x1 (ix1 (l1_src x1 p)) := by
  unfold Cert.KernelIdeal.KV.agg1
  rw [l1_kscat, ScatterRows.scatterAdd_rows_apply]
  refine congrArg₂ (· + ·) rfl ?_
  refine Finset.sum_congr (Finset.filter_congr fun p _ => by rw [l1_kcolumn_apply, l1_colN_apply x1 hx1]) fun p _ => ?_
  rw [extf_apply, l1_kgath,
    l1_gather_rows _ _ _ p q (l1_src x1 p) (l1_src_of x1 p _ (by rw [l1_kcolumn_apply, l1_row_apply]))]
  unfold Cert.KernelIdeal.KV.hp1
  rw [Cert.GcnSpec.scaleRows_apply]
  unfold Cert.KernelIdeal.KV.dcol
  rw [Keepdims.shapeCast_a_a1_apply]

/-- The reference's edge weight: the product of the two end nodes' weights. -/
theorem l1_v26_apply (hx1 : ∀ i, 0 ≤ (x1 i).toInt) (p : Fin 1600000) :
    Cert.ReferenceIdeal.Read.val_main_v26 (F := Ideal) x1 (ix1 p)
      = Cert.ReferenceIdeal.Read.val_main_v11 (F := Ideal) x1 (ix1 (l1_src x1 p))
        * Cert.ReferenceIdeal.Read.val_main_v11 (F := Ideal) x1 (ix1 (l1_dst x1 p)) := by
  unfold Cert.ReferenceIdeal.Read.val_main_v26
  rw [mulf_apply]
  unfold Cert.ReferenceIdeal.Read.val_main_v18 Cert.ReferenceIdeal.Read.val_main_v25
  rw [l1_rgathv,
    l1_gather_vec _ _ _ p (l1_src x1 p) (l1_src_of x1 p _ (l1_v17_apply x1 hx1 p)),
    l1_gather_vec _ _ _ p (l1_dst x1 p) (l1_dst_of x1 p _ (l1_v24_apply x1 hx1 p))]

/-- The edge weight broadcast along the row: at `(p, q)` it is the edge's weight. -/
theorem l1_v35_apply (p : Fin 1600000) (q : Fin 128) :
    Cert.ReferenceIdeal.Read.val_main_v35 (F := Ideal) x1 (ix2 p q) = Cert.ReferenceIdeal.Read.val_main_v26 (F := Ideal) x1 (ix1 p) := by
  rw [Cert.ReferenceIdeal.Read.val_main_v35_apply, Cert.ReferenceIdeal.Read.val_main_v34_apply]
  exact congrArg _ (funext fun a => match a with | ⟨0, _⟩ => rfl)

/-- THE REFERENCE'S AGGREGATE at `(r, q)`: the zero word plus, over the edges ending at `r`, the source's row of
    `x · W1` times the product of the two end nodes' weights. -/
theorem l1_v39_apply (hx1 : ∀ i, 0 ≤ (x1 i).toInt) (r : Fin 100000) (q : Fin 128) :
    Cert.ReferenceIdeal.Read.val_main_v39 (F := Ideal) x0 x1 x2 (ix2 r q)
      = Ideal.ofBits .f32 0x00000000#32 + ∑ p ∈ l1_into x1 r,
          Cert.ReferenceIdeal.Read.val_main_v4 (F := Ideal) x0 x2 (ix2 (l1_src x1 p) q)
            * (Cert.ReferenceIdeal.Read.val_main_v11 (F := Ideal) x1 (ix1 (l1_src x1 p))
              * Cert.ReferenceIdeal.Read.val_main_v11 (F := Ideal) x1 (ix1 (l1_dst x1 p))) := by
  unfold Cert.ReferenceIdeal.Read.val_main_v39
  rw [l1_rscat, ScatterRows.scatterAdd_rows_apply]
  refine congrArg₂ (· + ·) rfl ?_
  refine Finset.sum_congr (Finset.filter_congr fun p _ => by rw [l1_v38_apply]) fun p _ => ?_
  unfold Cert.ReferenceIdeal.Read.val_main_v36
  rw [mulf_apply, l1_v35_apply, l1_v26_apply x1 hx1]
  unfold Cert.ReferenceIdeal.Read.val_main_v33
  rw [l1_rgath, l1_gather_rows _ _ _ p q (l1_src x1 p) (l1_src_of x1 p _ (l1_v32_apply x1 hx1 p))]

/-! ## The self-loop and bias terms, and the layer -/

/-- The weight column at `(r, 0)` is the weight of `r`. -/
theorem l1_dcol_apply (r : Fin 100000) : Cert.KernelIdeal.KV.dcol x1 (ix2 r (0 : Fin 1)) = Cert.KernelIdeal.KV.dinv x1 (ix1 r) := by
  unfold Cert.KernelIdeal.KV.dcol
  rw [Keepdims.shapeCast_a_a1_apply]

/-- The bias as a row reads, at `(0, q)`, the bias at `q`. -/
theorem l1_b1row_apply (q : Fin 128) : Cert.KernelIdeal.KV.b1row x3 (ix2 (0 : Fin 1) q) = x3 (ix1 q) := by
  unfold Cert.KernelIdeal.KV.b1row
  exact shapeCast_apply x3 _ (ix2 (0 : Fin 1) q) (ix1 q) (by
    rw [Shape.rowMajor_val_two, Shape.rowMajor_val_one]; show q.val = 0 * 128 + q.val; omega)

/-- The reference's self-loop factor, broadcast along the row: at `(r, q)` the square of `r`'s weight. -/
theorem l1_v42_apply (r : Fin 100000) (q : Fin 128) :
    Cert.ReferenceIdeal.Read.val_main_v42 (F := Ideal) x1 (ix2 r q)
      = Cert.ReferenceIdeal.Read.val_main_v11 (F := Ideal) x1 (ix1 r) * Cert.ReferenceIdeal.Read.val_main_v11 (F := Ideal) x1 (ix1 r) := by
  rw [Cert.ReferenceIdeal.Read.val_main_v42_apply, Cert.ReferenceIdeal.Read.val_main_v41_apply]
  have hi : Cert.ReferenceIdeal.Read.idx_main_v41 (Cert.ReferenceIdeal.Read.idx_main_v42 (ix2 r q)) = ix1 r :=
    funext fun a => match a with | ⟨0, _⟩ => rfl
  rw [hi]
  unfold Cert.ReferenceIdeal.Read.val_main_v40
  rw [mulf_apply]

/-- The reference's bias, broadcast down the rows: at `(r, q)` the bias at `q`. -/
theorem l1_v46_apply (r : Fin 100000) (q : Fin 128) :
    Cert.ReferenceIdeal.Read.val_main_v46 (F := Ideal) x3 (ix2 r q) = x3 (ix1 q) := by
  rw [Cert.ReferenceIdeal.Read.val_main_v46_apply, Cert.ReferenceIdeal.Read.val_main_v45_apply]
  exact congrArg x3 (funext fun a => match a with | ⟨0, _⟩ => rfl)

/-- The reference's pre-activation at `(r, q)`: aggregate, plus the self loop, plus the bias. -/
theorem l1_v47_apply (r : Fin 100000) (q : Fin 128) :
    Cert.ReferenceIdeal.Read.val_main_v47 (F := Ideal) x0 x1 x2 x3 (ix2 r q)
      = (Cert.ReferenceIdeal.Read.val_main_v39 (F := Ideal) x0 x1 x2 (ix2 r q)
          + Cert.ReferenceIdeal.Read.val_main_v4 (F := Ideal) x0 x2 (ix2 r q)
            * (Cert.ReferenceIdeal.Read.val_main_v11 (F := Ideal) x1 (ix1 r) * Cert.ReferenceIdeal.Read.val_main_v11 (F := Ideal) x1 (ix1 r)))
        + x3 (ix1 q) := by
  unfold Cert.ReferenceIdeal.Read.val_main_v47 Cert.ReferenceIdeal.Read.val_main_v44 Cert.ReferenceIdeal.Read.val_main_v43
  rw [addf_apply, addf_apply, mulf_apply, l1_v42_apply, l1_v46_apply]

/-- THE FIRST LAYER: the kernel's combination of its aggregate is the reference's pre-activation. -/
theorem layer1_eq (hx0 : ∀ i, IsReal (x0 i)) (hx2 : ∀ i, IsReal (x2 i))
    (hx1 : ∀ i, 0 ≤ (x1 i).toInt) :
    Cert.GcnSpec.combine (n := 100000) (d := 128) (Cert.KernelIdeal.KV.agg1 x0 x1 x2) (Cert.KernelIdeal.KV.h1 x0 x2)
        (Cert.KernelIdeal.KV.dcol x1) (Cert.KernelIdeal.KV.b1row x3)
      = Cert.ReferenceIdeal.Read.val_main_v47 (F := Ideal) x0 x1 x2 x3 := by
  funext i
  obtain ⟨r, q, rfl⟩ : ∃ (r : Fin 100000) (q : Fin 128), i = ix2 r q := ⟨i 0, i 1, eq_ix2 i⟩
  rw [Cert.GcnSpec.combine_apply, l1_agg1_apply x0 x1 x2 hx1, l1_dcol_apply, l1_b1row_apply,
    l1_v47_apply, l1_v39_apply x0 x1 x2 hx1, ← h1_eq, ← dinv_eq]
  -- every edge summed into `r` ends at `r`, and all the numbers are real: the factor `w r` goes inside the sum
  have hagg : (Ideal.ofBits .f32 0x00000000#32 + ∑ p ∈ l1_into x1 r,
        Cert.KernelIdeal.KV.h1 x0 x2 (ix2 (l1_src x1 p) q) * Cert.KernelIdeal.KV.dinv x1 (ix1 (l1_src x1 p)))
        * Cert.KernelIdeal.KV.dinv x1 (ix1 r)
      = Ideal.ofBits .f32 0x00000000#32 + ∑ p ∈ l1_into x1 r,
        Cert.KernelIdeal.KV.h1 x0 x2 (ix2 (l1_src x1 p) q)
          * (Cert.KernelIdeal.KV.dinv x1 (ix1 (l1_src x1 p)) * Cert.KernelIdeal.KV.dinv x1 (ix1 (l1_dst x1 p))) :=
    agg_scale (l1_into x1 r) (l1_src x1) (l1_dst x1) r (l1_dst_of_mem x1 r)
      (fun s => Cert.KernelIdeal.KV.h1 x0 x2 (ix2 s q)) (fun s => Cert.KernelIdeal.KV.dinv x1 (ix1 s))
      (fun s => h1_real x0 x2 hx0 hx2 _) (fun s => dinv_real x1 _) _ Ideal.ofBits_zero_f32
  exact congrArg (fun t => t + Cert.KernelIdeal.KV.h1 x0 x2 (ix2 r q)
      * (Cert.KernelIdeal.KV.dinv x1 (ix1 r) * Cert.KernelIdeal.KV.dinv x1 (ix1 r)) + x3 (ix1 q)) hagg

/-! ## Real entries, and the second layer's linear image -/

theorem l1_v4_real (hx0 : ∀ i, IsReal (x0 i)) (hx2 : ∀ i, IsReal (x2 i)) :
    ∀ i, IsReal (Cert.ReferenceIdeal.Read.val_main_v4 (F := Ideal) x0 x2 i) := by
  rw [← h1_eq]; exact h1_real x0 x2 hx0 hx2

theorem l1_v11_real : ∀ i, IsReal (Cert.ReferenceIdeal.Read.val_main_v11 (F := Ideal) x1 i) := by
  rw [← dinv_eq]; exact dinv_real x1

/-- The float zero's word is the real number zero. -/
theorem l1_zero_word_real : IsReal (Ideal.ofBits .f32 0x00000000#32) := by
  rw [Ideal.ofBits_zero_f32]; exact isReal_zero

/-- The pre-activation's entries are real numbers. -/
theorem layer1_real (hx0 : ∀ i, IsReal (x0 i)) (hx2 : ∀ i, IsReal (x2 i)) (hx3 : ∀ i, IsReal (x3 i))
    (hx1 : ∀ i, 0 ≤ (x1 i).toInt) :
    ∀ i, IsReal (Cert.ReferenceIdeal.Read.val_main_v47 (F := Ideal) x0 x1 x2 x3 i) := by
  intro i
  obtain ⟨r, q, rfl⟩ : ∃ (r : Fin 100000) (q : Fin 128), i = ix2 r q := ⟨i 0, i 1, eq_ix2 i⟩
  rw [l1_v47_apply, l1_v39_apply x0 x1 x2 hx1]
  have h4 := l1_v4_real x0 x2 hx0 hx2
  have h11 := l1_v11_real x1
  -- sums and products of real numbers
  exact ((l1_zero_word_real.add (IsReal.sum _ _ fun p _ => (h4 _).mul ((h11 _).mul (h11 _)))).add
    ((h4 _).mul ((h11 _).mul (h11 _)))).add (hx3 _)

/-- Where the reference's second product reads its left operand: row `r`, column `k`. -/
theorem l1_lidx_v49 (r : Fin 100000) (c : Fin 64) (k : Fin 128) :
    Cert.ReferenceIdeal.Read.lidx_main_v49 (ix2 r c) k = ix2 r k :=
  funext fun a => Fin.ext (by match a with | ⟨0, _⟩ => rfl | ⟨1, _⟩ => rfl)

/-- Where it reads its right operand: row `k`, column `c`. -/
theorem l1_ridx_v49 (r : Fin 100000) (c : Fin 64) (k : Fin 128) :
    Cert.ReferenceIdeal.Read.ridx_main_v49 (ix2 r c) k = ix2 k c :=
  funext fun a => Fin.ext (by match a with | ⟨0, _⟩ => rfl | ⟨1, _⟩ => rfl)

/-- The reference's rectifier at an index: the maximum with the float zero's word. -/
theorem l1_v48_apply (i : Cert.ReferenceIdeal.S100000x128.Idx) :
    Cert.ReferenceIdeal.Read.val_main_v48 (F := Ideal) x0 x1 x2 x3 i
      = max (Cert.ReferenceIdeal.Read.val_main_v47 (F := Ideal) x0 x1 x2 x3 i) (Ideal.ofBits .f32 0x00000000#32) := by
  unfold Cert.ReferenceIdeal.Read.val_main_v48
  rw [maximumf_apply]
  refine congrArg (max _) ?_
  rw [Cert.ReferenceIdeal.Read.val_main_call0_v0_apply]
  rfl

/-- The second layer's linear image is the reference's. -/
theorem h2_eq (hx0 : ∀ i, IsReal (x0 i)) (hx2 : ∀ i, IsReal (x2 i))
    (hx1 : ∀ i, 0 ≤ (x1 i).toInt) :
    Cert.KernelIdeal.KV.h2 x0 x1 x2 x3 x4 = Cert.ReferenceIdeal.Read.val_main_v49 (F := Ideal) x0 x1 x2 x3 x4 := by
  funext i
  obtain ⟨r, c, rfl⟩ : ∃ (r : Fin 100000) (c : Fin 64), i = ix2 r c := ⟨i 0, i 1, eq_ix2 i⟩
  unfold Cert.KernelIdeal.KV.h2
  rw [Cert.GcnSpec.mm_apply, layer1_eq x0 x1 x2 x3 hx0 hx2 hx1, Cert.ReferenceIdeal.Read.val_main_v49_apply]
  refine Finset.sum_congr rfl fun k _ => ?_
  rw [l1_lidx_v49, l1_ridx_v49, l1_v48_apply, Cert.GcnSpec.relu_apply]

/-- Its entries are real numbers. -/
theorem h2_real (hx0 : ∀ i, IsReal (x0 i)) (hx2 : ∀ i, IsReal (x2 i)) (hx3 : ∀ i, IsReal (x3 i)) (hx4 : ∀ i, IsReal (x4 i))
    (hx1 : ∀ i, 0 ≤ (x1 i).toInt) :
    ∀ i, IsReal (Cert.KernelIdeal.KV.h2 x0 x1 x2 x3 x4 i) := by
  intro i
  obtain ⟨r, c, rfl⟩ : ∃ (r : Fin 100000) (c : Fin 64), i = ix2 r c := ⟨i 0, i 1, eq_ix2 i⟩
  unfold Cert.KernelIdeal.KV.h2
  rw [Cert.GcnSpec.mm_apply, layer1_eq x0 x1 x2 x3 hx0 hx2 hx1]
  refine IsReal.sum _ _ fun k _ => IsReal.mul ?_ (hx4 _)
  rw [Cert.GcnSpec.relu_apply]
  exact IsReal.max (layer1_real x0 x1 x2 x3 hx0 hx2 hx3 hx1 _) l1_zero_word_real

end Cert.Bridge

end
-- ==== Proof.Bridge2.lean ====
/-
  The kernel program's result is the reference's, on the extended reals: the second layer.

  As in the first layer, the reference sums into node `i` each edge's message `h2[src] · (w[src] · w[dst])` while the
  kernel sums `h2[src] · w[src]` and scales by `w[i]` afterwards; every edge summed into `i` has `dst = i`, all the
  numbers are real, and the factor distributes over the sum. Adding the self-loop term `h2 · w²` and the bias gives the
  reference's result entry by entry.

  The steps. Both programs read the edge list's two rows as the same two vectors of index words. With every word
  non-negative the select that moves a negative word up by the node count returns the word itself, so every index
  column, moved or raw, holds the same words. A gather reads the entry of the node its word names (read signed and
  clamped into the node range), and a scatter-add sums into node `r` the update rows whose word is `r`; such a word names
  the node `r`. So both aggregates at `(r, q)` are the zero word plus a sum over one and the same set of edges, and the
  aggregation law for real numbers identifies the kernel's scaled sum with the reference's sum of scaled messages.
-/
import proofs.«401091_j22041772163615_3_alg».proof.Proof.KTerms
import proofs.«401091_j22041772163615_3_alg».proof.Proof.Gen.ReferenceIdeal.Read
import proofs.«401091_j22041772163615_3_alg».proof.Proof.LibRealSums
import proofs.«401091_j22041772163615_3_alg».proof.Proof.LibGatherRows
import proofs.«401091_j22041772163615_3_alg».proof.Proof.LibScatterRows
import proofs.«401091_j22041772163615_3_alg».proof.Proof.LibKeepdims
import proofs.«401091_j22041772163615_3_alg».proof.Proof.Bridge1
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx Idealize.ShloMosaic.RealSums
open Cert.KernelIdeal (S100000x12 S2x1600000 S12x128 S128 S128x64 S64)

variable (x0 : FVec Ideal S100000x12 .f32) (x1 : IVec S2x1600000 32) (x2 : FVec Ideal S12x128 .f32)
  (x3 : FVec Ideal S128 .f32) (x4 : FVec Ideal S128x64 .f32) (x5 : FVec Ideal S64 .f32)

/-! ## The edge list's rows -/

/-- The reference's vector of edge sources is the kernel's: the same slice and reshape of the edge list. -/
theorem l2_v1_eq : Cert.ReferenceIdeal.Read.val_main_v1 (F := Ideal) x1 = Cert.KernelIdeal.KV.row x1 := rfl
/-- The reference's vector of edge targets is the kernel's. -/
theorem l2_v3_eq : Cert.ReferenceIdeal.Read.val_main_v3 (F := Ideal) x1 = Cert.KernelIdeal.KV.col x1 := rfl

/-- The source word of edge `p` is the edge list at `(0, p)`. -/
theorem l2_row_apply (p : Fin 1600000) : Cert.KernelIdeal.KV.row x1 (ix1 p) = x1 (ix2 (0 : Fin 2) p) := by
  rw [← l2_v1_eq, Cert.ReferenceIdeal.Read.val_main_v1_apply, Cert.ReferenceIdeal.Read.val_main_v0_apply]
  refine congrArg x1 (funext fun a => Fin.ext ?_)
  match a with
  | ⟨0, _⟩ => rfl
  | ⟨1, _⟩ => exact Nat.mod_eq_of_lt p.isLt

/-- The target word of edge `p` is the edge list at `(1, p)`. -/
theorem l2_col_apply (p : Fin 1600000) : Cert.KernelIdeal.KV.col x1 (ix1 p) = x1 (ix2 (1 : Fin 2) p) := by
  rw [← l2_v3_eq, Cert.ReferenceIdeal.Read.val_main_v3_apply, Cert.ReferenceIdeal.Read.val_main_v2_apply]
  refine congrArg x1 (funext fun a => Fin.ext ?_)
  match a with
  | ⟨0, _⟩ => rfl
  | ⟨1, _⟩ => exact Nat.mod_eq_of_lt p.isLt

/-! ## Index words: the node a word names, and words that are not moved -/

/-- The node a 32-bit index word names when it is read signed and clamped into the node range. -/
def l2_node (w : BitVec 32) : Fin 100000 := ⟨min w.toInt.toNat 99999, by omega⟩

/-- A non-negative index word is not moved: the select on "the word is negative" returns the word itself. -/
theorem l2_norm_word (w : BitVec 32) (h : 0 ≤ w.toInt) :
    Scalar.select (IntOp.cmpi .slt w 0#32) (IntOp.addi w 100000#32) w = w := by
  have hs : w.slt 0#32 = false := by
    unfold BitVec.slt
    have h0 : (0#32 : BitVec 32).toInt = 0 := by decide
    rw [h0]
    exact decide_eq_false (by omega)
  have hc : IntOp.cmpi .slt w 0#32 = 0#1 := by
    unfold IntOp.cmpi
    show BitVec.ofBool (w.slt 0#32) = 0#1
    rw [hs]; rfl
  rw [hc, select_zero]

/-- A vector viewed as a column reads, at `(p, u)`, the vector at `p`. -/
theorem l2_bcast_col {α : Type} {e : Nat} (he : e ≠ 1) (v : (⟨1, ![e]⟩ : Shape).Idx → α)
    (h : (⟨1, ![e]⟩ : Shape).BroadcastsInDim ⟨2, ![e, 1]⟩ ![0]) (p : Fin e) (u : Fin 1) :
    broadcastInDim ⟨2, ![e, 1]⟩ ![0] h v (ix2 p u) = v (ix1 p) :=
  broadcastInDim_apply _ h v _ _ (fun a => match a with
    | ⟨0, _⟩ => by show p.val = if e = 1 then 0 else p.val; rw [if_neg he])

/-- The kernel's moved target word of edge `p` is the raw one. -/
theorem l2_colN_apply (hx1 : ∀ i, 0 ≤ (x1 i).toInt) (p : Fin 1600000) :
    Cert.KernelIdeal.KV.colN x1 (ix1 p) = x1 (ix2 (1 : Fin 2) p) := by
  show Scalar.select (IntOp.cmpi .slt (Cert.KernelIdeal.KV.col x1 (ix1 p)) 0#32)
    (IntOp.addi (Cert.KernelIdeal.KV.col x1 (ix1 p)) 100000#32) (Cert.KernelIdeal.KV.col x1 (ix1 p)) = _
  rw [l2_col_apply]
  exact l2_norm_word _ (hx1 _)

/-- The reference's moved source word of edge `p` (the one its row gather reads) is the raw one. -/
theorem l2_v76_apply (hx1 : ∀ i, 0 ≤ (x1 i).toInt) (p : Fin 1600000) :
    Cert.ReferenceIdeal.Read.val_main_v76 (F := Ideal) x1 (ix1 p) = x1 (ix2 (0 : Fin 2) p) := by
  show Scalar.select (IntOp.cmpi .slt (Cert.ReferenceIdeal.Read.val_main_v1 (F := Ideal) x1 (ix1 p)) 0#32)
    (IntOp.addi (Cert.ReferenceIdeal.Read.val_main_v1 (F := Ideal) x1 (ix1 p)) 100000#32) (Cert.ReferenceIdeal.Read.val_main_v1 (F := Ideal) x1 (ix1 p)) = _
  rw [l2_v1_eq, l2_row_apply]
  exact l2_norm_word _ (hx1 _)

/-- The reference's moved source word of edge `p` (the one its weight gather reads) is the raw one. -/
theorem l2_v61_apply (hx1 : ∀ i, 0 ≤ (x1 i).toInt) (p : Fin 1600000) :
    Cert.ReferenceIdeal.Read.val_main_v61 (F := Ideal) x1 (ix1 p) = x1 (ix2 (0 : Fin 2) p) := by
  show Scalar.select (IntOp.cmpi .slt (Cert.ReferenceIdeal.Read.val_main_v1 (F := Ideal) x1 (ix1 p)) 0#32)
    (IntOp.addi (Cert.ReferenceIdeal.Read.val_main_v1 (F := Ideal) x1 (ix1 p)) 100000#32) (Cert.ReferenceIdeal.Read.val_main_v1 (F := Ideal) x1 (ix1 p)) = _
  rw [l2_v1_eq, l2_row_apply]
  exact l2_norm_word _ (hx1 _)

/-- The reference's moved target word of edge `p` is the raw one. -/
theorem l2_v68_apply (hx1 : ∀ i, 0 ≤ (x1 i).toInt) (p : Fin 1600000) :
    Cert.ReferenceIdeal.Read.val_main_v68 (F := Ideal) x1 (ix1 p) = x1 (ix2 (1 : Fin 2) p) := by
  show Scalar.select (IntOp.cmpi .slt (Cert.ReferenceIdeal.Read.val_main_v3 (F := Ideal) x1 (ix1 p)) 0#32)
    (IntOp.addi (Cert.ReferenceIdeal.Read.val_main_v3 (F := Ideal) x1 (ix1 p)) 100000#32) (Cert.ReferenceIdeal.Read.val_main_v3 (F := Ideal) x1 (ix1 p)) = _
  rw [l2_v3_eq, l2_col_apply]
  exact l2_norm_word _ (hx1 _)

/-! ## Gathers and scatter-adds at an index

The dimension-number records of the two programs are the general row / vector gather and row scatter-add. -/

theorem l2_kscat : Cert.KernelIdeal.scatter_S100000x64_S1600000x1_S1600000x64_1_0_0_1
    = ScatterRows.rowsDims 100000 1600000 64 Cert.KernelIdeal.Facts₀.scatter_S100000x64_S1600000x1_S1600000x64_1_0_0_1_wf := rfl
theorem l2_kgath : Cert.KernelIdeal.gather_S100000x64_S1600000x1_S1600000x64_1_0_n_n_0_1_164
    = GatherRows.rowsDims 100000 1600000 64 Cert.KernelIdeal.Facts₀.gather_S100000x64_S1600000x1_S1600000x64_1_0_n_n_0_1_164_wf := rfl
theorem l2_rscat : Cert.ReferenceIdeal.scatter_S100000x64_S1600000x1_S1600000x64_1_0_0_1
    = ScatterRows.rowsDims 100000 1600000 64 Cert.ReferenceIdeal.Facts₀.scatter_S100000x64_S1600000x1_S1600000x64_1_0_0_1_wf := rfl
theorem l2_rgath : Cert.ReferenceIdeal.gather_S100000x64_S1600000x1_S1600000x64_1_0_n_n_0_1_164
    = GatherRows.rowsDims 100000 1600000 64 Cert.ReferenceIdeal.Facts₀.gather_S100000x64_S1600000x1_S1600000x64_1_0_n_n_0_1_164_wf := rfl
theorem l2_rgathv : Cert.ReferenceIdeal.gather_S100000_S1600000x1_S1600000_n_0_n_n_0_1_1
    = GatherRows.vecDims 100000 1600000 Cert.ReferenceIdeal.Facts₀.gather_S100000_S1600000x1_S1600000_n_0_n_n_0_1_1_wf := rfl

/-- A row gather from a `100000`-row array reads, at `(p, q)`, the row of the node the index word names. -/
theorem l2_gather_rows {α : Type} {e d : Nat}
    (wf : GatherDims.WF ⟨2, ![100000, d]⟩ ⟨2, ![e, 1]⟩ ⟨2, ![e, d]⟩ [1] [0] [] [0] [] 1 ![1, d])
    (x : (⟨2, ![100000, d]⟩ : Shape).Idx → α) (idx : IVec ⟨2, ![e, 1]⟩ 32) (p : Fin e) (q : Fin d) :
    Host.gather (GatherRows.rowsDims 100000 e d wf) x idx (ix2 p q) = x (ix2 (l2_node (idx (ix2 p (0 : Fin 1)))) q) :=
  GatherRows.gather_rows_apply (by decide) wf x idx p q

/-- A vector gather from a `100000`-entry array reads, at `p`, the entry of the node the index word names. -/
theorem l2_gather_vec {α : Type} {e : Nat}
    (wf : GatherDims.WF ⟨1, ![100000]⟩ ⟨2, ![e, 1]⟩ ⟨1, ![e]⟩ [] [0] [] [0] [] 1 ![1])
    (x : (⟨1, ![100000]⟩ : Shape).Idx → α) (idx : IVec ⟨2, ![e, 1]⟩ 32) (p : Fin e) :
    Host.gather (GatherRows.vecDims 100000 e wf) x idx (ix1 p) = x (ix1 (l2_node (idx (ix2 p (0 : Fin 1))))) :=
  GatherRows.gather_vec_apply (by decide) wf x idx p

/-- The weight column at `(r, u)` is the weight of node `r`. -/
theorem l2_dcol_apply (r : Fin 100000) (u : Fin 1) :
    Cert.KernelIdeal.KV.dcol x1 (ix2 r u) = Cert.KernelIdeal.KV.dinv x1 (ix1 r) :=
  Keepdims.shapeCast_a_a1_apply _ _ r u

/-- The bias row at `(0, q)` is the bias at `q`. -/
theorem l2_b2row_apply (q : Fin 64) : Cert.KernelIdeal.KV.b2row x5 (ix2 (0 : Fin 1) q) = x5 (ix1 q) :=
  shapeCast_apply x5 _ _ _ (by
    rw [Shape.rowMajor_val_two, Shape.rowMajor_val_one]
    show q.val = 0 * 64 + q.val
    omega)

/-! ## The two aggregates at an index -/

/-- THE KERNEL'S AGGREGATE AT `(r, q)`: the zero word plus, over the edges whose target word is `r`, the source's
    `h2` entry scaled by the source's weight. -/
theorem l2_agg2_apply (hx1 : ∀ i, 0 ≤ (x1 i).toInt) (r : Fin 100000) (q : Fin 64) :
    Cert.KernelIdeal.KV.agg2 x0 x1 x2 x3 x4 (ix2 r q)
      = Ideal.ofBits .f32 0x00000000#32
        + ∑ p ∈ Finset.univ.filter (fun p : Fin 1600000 => (x1 (ix2 (1 : Fin 2) p)).toInt = (r.val : Int)),
            Cert.KernelIdeal.KV.h2 x0 x1 x2 x3 x4 (ix2 (l2_node (x1 (ix2 (0 : Fin 2) p))) q)
              * Cert.KernelIdeal.KV.dinv x1 (ix1 (l2_node (x1 (ix2 (0 : Fin 2) p)))) := by
  unfold Cert.KernelIdeal.KV.agg2
  rw [l2_kscat, ScatterRows.scatterAdd_rows_apply]
  refine congrArg₂ (· + ·) rfl (Finset.sum_congr (Finset.filter_congr fun p _ => ?_) fun p _ => ?_)
  · rw [l2_bcast_col (by decide), l2_colN_apply x1 hx1]
  · rw [extf_apply, l2_kgath, l2_gather_rows, l2_bcast_col (by decide), l2_row_apply]
    unfold Cert.KernelIdeal.KV.hp2
    rw [Cert.GcnSpec.scaleRows_apply, l2_dcol_apply]

/-- The edge weights broadcast along the row: at `(p, q)` the weight of edge `p`. -/
theorem l2_v80_apply (p : Fin 1600000) (q : Fin 64) :
    Cert.ReferenceIdeal.Read.val_main_v80 (F := Ideal) x1 (ix2 p q) = Cert.ReferenceIdeal.Read.val_main_v71 (F := Ideal) x1 (ix1 p) := by
  rw [Cert.ReferenceIdeal.Read.val_main_v80_apply, Cert.ReferenceIdeal.Read.val_main_v79_apply]
  exact congrArg _ (funext fun a => match a with | ⟨0, _⟩ => rfl)

/-- The weight of edge `p`: the product of its two end nodes' weights. -/
theorem l2_v71_apply (hx1 : ∀ i, 0 ≤ (x1 i).toInt) (p : Fin 1600000) :
    Cert.ReferenceIdeal.Read.val_main_v71 (F := Ideal) x1 (ix1 p)
      = Cert.ReferenceIdeal.Read.val_main_v56 (F := Ideal) x1 (ix1 (l2_node (x1 (ix2 (0 : Fin 2) p))))
        * Cert.ReferenceIdeal.Read.val_main_v56 (F := Ideal) x1 (ix1 (l2_node (x1 (ix2 (1 : Fin 2) p)))) := by
  rw [Cert.ReferenceIdeal.Read.val_main_v71_apply]
  show Cert.ReferenceIdeal.Read.val_main_v63 (F := Ideal) x1 (ix1 p) * Cert.ReferenceIdeal.Read.val_main_v70 (F := Ideal) x1 (ix1 p) = _
  unfold Cert.ReferenceIdeal.Read.val_main_v63 Cert.ReferenceIdeal.Read.val_main_v70
  rw [l2_rgathv, l2_gather_vec, l2_gather_vec]
  unfold Cert.ReferenceIdeal.Read.val_main_v62 Cert.ReferenceIdeal.Read.val_main_v69
  rw [l2_bcast_col (by decide), l2_bcast_col (by decide), l2_v61_apply x1 hx1, l2_v68_apply x1 hx1]

/-- The message of edge `p` at column `q`: the source's `h2` entry times the edge's weight. -/
theorem l2_v81_apply (hx1 : ∀ i, 0 ≤ (x1 i).toInt) (p : Fin 1600000) (q : Fin 64) :
    Cert.ReferenceIdeal.Read.val_main_v81 (F := Ideal) x0 x1 x2 x3 x4 (ix2 p q)
      = Cert.ReferenceIdeal.Read.val_main_v49 (F := Ideal) x0 x1 x2 x3 x4 (ix2 (l2_node (x1 (ix2 (0 : Fin 2) p))) q)
        * (Cert.ReferenceIdeal.Read.val_main_v56 (F := Ideal) x1 (ix1 (l2_node (x1 (ix2 (0 : Fin 2) p))))
          * Cert.ReferenceIdeal.Read.val_main_v56 (F := Ideal) x1 (ix1 (l2_node (x1 (ix2 (1 : Fin 2) p))))) := by
  rw [Cert.ReferenceIdeal.Read.val_main_v81_apply]
  show Cert.ReferenceIdeal.Read.val_main_v78 (F := Ideal) x0 x1 x2 x3 x4 (ix2 p q) * Cert.ReferenceIdeal.Read.val_main_v80 (F := Ideal) x1 (ix2 p q) = _
  rw [l2_v80_apply, l2_v71_apply x1 hx1]
  unfold Cert.ReferenceIdeal.Read.val_main_v78
  rw [l2_rgath, l2_gather_rows]
  unfold Cert.ReferenceIdeal.Read.val_main_v77
  rw [l2_bcast_col (by decide), l2_v76_apply x1 hx1]

/-- THE REFERENCE'S AGGREGATE AT `(r, q)`: the zero word plus, over the edges whose target word is `r`, the message. -/
theorem l2_v84_apply (hx1 : ∀ i, 0 ≤ (x1 i).toInt) (r : Fin 100000) (q : Fin 64) :
    Cert.ReferenceIdeal.Read.val_main_v84 (F := Ideal) x0 x1 x2 x3 x4 (ix2 r q)
      = Ideal.ofBits .f32 0x00000000#32
        + ∑ p ∈ Finset.univ.filter (fun p : Fin 1600000 => (x1 (ix2 (1 : Fin 2) p)).toInt = (r.val : Int)),
            Cert.ReferenceIdeal.Read.val_main_v49 (F := Ideal) x0 x1 x2 x3 x4 (ix2 (l2_node (x1 (ix2 (0 : Fin 2) p))) q)
              * (Cert.ReferenceIdeal.Read.val_main_v56 (F := Ideal) x1 (ix1 (l2_node (x1 (ix2 (0 : Fin 2) p))))
                * Cert.ReferenceIdeal.Read.val_main_v56 (F := Ideal) x1 (ix1 (l2_node (x1 (ix2 (1 : Fin 2) p))))) := by
  unfold Cert.ReferenceIdeal.Read.val_main_v84
  rw [l2_rscat, ScatterRows.scatterAdd_rows_apply]
  refine congrArg₂ (· + ·) rfl (Finset.sum_congr (Finset.filter_congr fun p _ => ?_) fun p _ => ?_)
  · unfold Cert.ReferenceIdeal.Read.val_main_v83
    rw [l2_bcast_col (by decide), l2_v3_eq, l2_col_apply]
  · exact l2_v81_apply x0 x1 x2 x3 x4 hx1 p q

/-- The self-loop factor at `(r, q)`: the square of node `r`'s weight. -/
theorem l2_v87_apply (r : Fin 100000) (q : Fin 64) :
    Cert.ReferenceIdeal.Read.val_main_v87 (F := Ideal) x1 (ix2 r q)
      = Cert.ReferenceIdeal.Read.val_main_v56 (F := Ideal) x1 (ix1 r) * Cert.ReferenceIdeal.Read.val_main_v56 (F := Ideal) x1 (ix1 r) := by
  rw [Cert.ReferenceIdeal.Read.val_main_v87_apply, Cert.ReferenceIdeal.Read.val_main_v86_apply, Cert.ReferenceIdeal.Read.val_main_v85_apply]
  have hi : Cert.ReferenceIdeal.Read.idx_main_v86 (Cert.ReferenceIdeal.Read.idx_main_v87 (ix2 r q)) = ix1 r :=
    funext fun a => match a with | ⟨0, _⟩ => rfl
  rw [hi]; rfl

/-- The bias broadcast over the rows: at `(r, q)` the bias at `q`. -/
theorem l2_v91_apply (r : Fin 100000) (q : Fin 64) :
    Cert.ReferenceIdeal.Read.val_main_v91 (F := Ideal) x5 (ix2 r q) = x5 (ix1 q) := by
  rw [Cert.ReferenceIdeal.Read.val_main_v91_apply, Cert.ReferenceIdeal.Read.val_main_v90_apply]
  exact congrArg x5 (funext fun a => match a with | ⟨0, _⟩ => rfl)

/-! ## The result -/

/-- THE RESULT: the kernel program's output array is the reference's. -/
theorem out_eq (hx0 : ∀ i, IsReal (x0 i)) (hx2 : ∀ i, IsReal (x2 i)) (hx3 : ∀ i, IsReal (x3 i)) (hx4 : ∀ i, IsReal (x4 i))
    (hx1 : ∀ i, 0 ≤ (x1 i).toInt) :
    Cert.KernelIdeal.KV.out x0 x1 x2 x3 x4 x5 = Cert.ReferenceIdeal.Read.val_main_v92 (F := Ideal) x0 x1 x2 x3 x4 x5 := by
  funext i
  obtain ⟨r, q, rfl⟩ : ∃ (r : Fin 100000) (q : Fin 64), i = ix2 r q := ⟨i 0, i 1, eq_ix2 i⟩
  -- the reference's `h2` and weights are the kernel's
  have e49 : Cert.ReferenceIdeal.Read.val_main_v49 (F := Ideal) x0 x1 x2 x3 x4 = Cert.KernelIdeal.KV.h2 x0 x1 x2 x3 x4 :=
    (h2_eq x0 x1 x2 x3 x4 hx0 hx2 hx1).symm
  have e56 : Cert.ReferenceIdeal.Read.val_main_v56 (F := Ideal) x1 = Cert.KernelIdeal.KV.dinv x1 :=
    (dinv_eq2 x1).trans (dinv_eq x1).symm
  -- every edge summed into `r` ends at `r`: a target word equal to `r` names the node `r`
  have hc : ∀ p ∈ Finset.univ.filter (fun p : Fin 1600000 => (x1 (ix2 (1 : Fin 2) p)).toInt = (r.val : Int)),
      l2_node (x1 (ix2 (1 : Fin 2) p)) = r := by
    intro p hp
    have hp' := (Finset.mem_filter.mp hp).2
    refine Fin.ext ?_
    show min (x1 (ix2 (1 : Fin 2) p)).toInt.toNat 99999 = r.val
    have := r.isLt
    omega
  -- the real factor `w r` distributes over the sum of real messages
  have key := agg_scale (Finset.univ.filter (fun p : Fin 1600000 => (x1 (ix2 (1 : Fin 2) p)).toInt = (r.val : Int)))
    (fun p => l2_node (x1 (ix2 (0 : Fin 2) p))) (fun p => l2_node (x1 (ix2 (1 : Fin 2) p))) r hc
    (fun s => Cert.KernelIdeal.KV.h2 x0 x1 x2 x3 x4 (ix2 s q)) (fun s => Cert.KernelIdeal.KV.dinv x1 (ix1 s))
    (fun s => h2_real x0 x1 x2 x3 x4 hx0 hx2 hx3 hx4 hx1 _) (fun s => dinv_real x1 _)
    (Ideal.ofBits .f32 0x00000000#32) Ideal.ofBits_zero_f32
  unfold Cert.KernelIdeal.KV.out
  rw [Cert.GcnSpec.combine_apply, l2_agg2_apply x0 x1 x2 x3 x4 hx1, l2_dcol_apply, l2_b2row_apply,
    Cert.ReferenceIdeal.Read.val_main_v92_apply, Cert.ReferenceIdeal.Read.val_main_v89_apply,
    Cert.ReferenceIdeal.Read.val_main_v88_apply, l2_v84_apply x0 x1 x2 x3 x4 hx1, l2_v87_apply, l2_v91_apply, e49, e56]
  exact congrArg₂ (· + ·) (congrArg₂ (· + ·) key rfl) rfl

end Cert.Bridge

end
-- ==== Proof.lean ====
/-
  Two layers of graph convolution, `out = Â · relu(Â · (x·W1) + b1) · W2 + b2` with `Â = D^{-1/2} (A + I) D^{-1/2}` over an edge
  list, as three pallas_calls among host gathers and scatter-adds, against the plain jnp reference.

  The reference forms each edge's message `h[src] · (w[src] · w[dst])` (`w` the reciprocal square roots of the degrees)
  and sums the messages into their targets; the kernel program scales the rows of `h` by `w` once, sums the scaled
  source rows into the targets, and multiplies each node's sum by its own weight afterwards. On the extended reals the
  two agree because every number involved is real (the inputs are finite; a degree plus one is positive), so the
  factor `w[i]` distributes over node `i`'s sum; and because no entry of the edge list is negative, the two programs'
  different handling of a negative index (wrapped by the reference's indexing, clamped by the kernel's take; wrapped by
  the kernel's indexed update, dropped by the reference's segment sum) never comes into play, while an index past the
  last node is clamped by both programs' gathers and dropped by both scatter-adds. The changes of float format in the kernel are the identity on
  the extended reals, and a blockwise matrix product is the whole product row block by row block.

  The frames of the two kernel programs are the generated ones; the reference's is its generated run. The kernel
  program's result is read off the frame's run (the run theorem called again with the result buffer in its post),
  through the fold of @main's segments, as one whole-array function of the arguments (`KV.out`), which the bridge
  modules identify with the reference's last stage.
-/
import proofs.«401091_j22041772163615_3_alg».proof.Defs
import proofs.«401091_j22041772163615_3_alg».proof.Proof.Gen.Kernel
import proofs.«401091_j22041772163615_3_alg».proof.Proof.Gen.Kernel.Skeleton
import proofs.«401091_j22041772163615_3_alg».proof.Proof.Gen.Kernel.Launch
import proofs.«401091_j22041772163615_3_alg».proof.Proof.Gen.Kernel.Points
import proofs.«401091_j22041772163615_3_alg».proof.Proof.Gen.Kernel.Frame
import proofs.«401091_j22041772163615_3_alg».proof.Proof.Gen.KernelIdeal
import proofs.«401091_j22041772163615_3_alg».proof.Proof.Gen.KernelIdeal.Skeleton
import proofs.«401091_j22041772163615_3_alg».proof.Proof.Gen.KernelIdeal.Launch
import proofs.«401091_j22041772163615_3_alg».proof.Proof.Gen.KernelIdeal.Points
import proofs.«401091_j22041772163615_3_alg».proof.Proof.Gen.KernelIdeal.Frame
import proofs.«401091_j22041772163615_3_alg».proof.Proof.Gen.ReferenceIdeal
import proofs.«401091_j22041772163615_3_alg».proof.Proof.Gen.ReferenceIdeal.Run
import proofs.«401091_j22041772163615_3_alg».proof.Proof.Gen.ReferenceIdeal.Read
import proofs.«401091_j22041772163615_3_alg».proof.Proof.Gen.Pre_finite_inputs
import proofs.«401091_j22041772163615_3_alg».proof.Proof.PreFacts
import proofs.«401091_j22041772163615_3_alg».proof.Proof.KRun
import proofs.«401091_j22041772163615_3_alg».proof.Proof.KReg0
import proofs.«401091_j22041772163615_3_alg».proof.Proof.KReg1
import proofs.«401091_j22041772163615_3_alg».proof.Proof.KReg2
import proofs.«401091_j22041772163615_3_alg».proof.Proof.KFold
import proofs.«401091_j22041772163615_3_alg».proof.Proof.Bridge2
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `KV.out` of the arguments: the kernel program by its run and the fold of
    its segments, the reference because its last stage is that function under the precondition (the bridge). -/
theorem algebraic : Cert.algebraic_KernelIdeal_ReferenceIdeal := by
  intro m ρ m' ρ' hpre hagree
  refine ⟨fun c => Cert.KernelIdeal.KV.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.GenP.run_out (F := Ideal) m ρ)
    exact Cert.KernelIdeal.Fold.W8_out m ρ Cert.KernelIdeal.Reg0.final3 Cert.KernelIdeal.Reg0.final4
      Cert.KernelIdeal.Reg1.final5 Cert.KernelIdeal.Reg1.final6 Cert.KernelIdeal.Reg2.final4 c
  · refine (θ_run Cert.ReferenceIdeal.defs _ _).mono (fun r h c => ⟨(h c).1.trans ?_, (h c).2⟩)
      (Cert.ReferenceIdeal.Value.run (F := Ideal) m' ρ')
    obtain ⟨h0, h2, h3, h4, h5, h1⟩ := Cert.PreFacts.of_pre _ _ _ _ _ _ (hpre c)
    obtain ⟨e0, e1, e2, e3, e4, e5⟩ := hagree c
    rw [Cert.ReferenceIdeal.Read.val_main_v92_eq, e0, e1, e2, e3, e4, e5]
    exact (Cert.Bridge.out_eq _ _ _ _ _ _ h0 h2 h3 h4 h1).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
